-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v8)) (v2 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_v9) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_v10) = v1 c
          ∧ r.2.mem ((c.tc : Thread Cert.ReferenceIdeal.nD Cert.ReferenceIdeal.τ).loc Cert.ReferenceIdeal.main_v15) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x384x200x176 : Shape := ⟨4, ![8, 384, 200, 176]⟩
abbrev S384x2 : Shape := ⟨2, ![384, 2]⟩
abbrev S2 : Shape := ⟨1, ![2]⟩
abbrev S384x14 : Shape := ⟨2, ![384, 14]⟩
abbrev S14 : Shape := ⟨1, ![14]⟩
abbrev S384x4 : Shape := ⟨2, ![384, 4]⟩
abbrev S4 : Shape := ⟨1, ![4]⟩
abbrev S_ : Shape := ⟨0, ![]⟩

class Facts : Prop where
  bcast_S_S8x384x200x176 : S_.BroadcastsInDim S8x384x200x176 (![] : Fin 0 → Fin S8x384x200x176.rank)
  reducesTo_S8x384x200x176_S_d0_1_2_3 : S8x384x200x176.ReducesTo [0, 1, 2, 3] S_
  h_S_ : 0 < S_.numel
  bcast_S_S384x2 : S_.BroadcastsInDim S384x2 (![] : Fin 0 → Fin S384x2.rank)
  reducesTo_S384x2_S_d0_1 : S384x2.ReducesTo [0, 1] S_
  bcast_S_S2 : S_.BroadcastsInDim S2 (![] : Fin 0 → Fin S2.rank)
  reducesTo_S2_S_d0 : S2.ReducesTo [0] S_
  bcast_S_S384x14 : S_.BroadcastsInDim S384x14 (![] : Fin 0 → Fin S384x14.rank)
  reducesTo_S384x14_S_d0_1 : S384x14.ReducesTo [0, 1] S_
  bcast_S_S14 : S_.BroadcastsInDim S14 (![] : Fin 0 → Fin S14.rank)
  reducesTo_S14_S_d0 : S14.ReducesTo [0] S_
  bcast_S_S384x4 : S_.BroadcastsInDim S384x4 (![] : Fin 0 → Fin S384x4.rank)
  reducesTo_S384x4_S_d0_1 : S384x4.ReducesTo [0, 1] S_
  bcast_S_S4 : S_.BroadcastsInDim S4 (![] : Fin 0 → Fin S4.rank)
  reducesTo_S4_S_d0 : S4.ReducesTo [0] S_

variable [Facts]

def fn_part1 {F : FTy → Type} [FloatOps F] (main_arg4 : FVec F S14 .f32) (main_arg5 : FVec F S384x4 .f32) (main_arg6 : FVec F S4 .f32) (main_v13 : IVec S_ 1) (main_v16 : IVec S384x14 1) : IVec S_ 1 :=
  let main_c_5 : IVec S_ 1 := constantI S_ 1 1#1
  let main_v17 : IVec S_ 1 := (fun x v => Host.reduce IntOp.andi x v reducesTo_S384x14_S_d0_1 h_S_) main_v16 main_c_5
  let main_v18 : IVec S_ 1 := andi main_v13 main_v17
  let main_v19 : FVec F S14 .f32 := Host.absf main_arg4
  let main_cst_6 : FVec F S_ .f32 := constant S_ .f32 0x7F800000#32
  let main_v20 : FVec F S14 .f32 := broadcastInDim S14 ![] bcast_S_S14 main_cst_6
  let main_v21 : IVec S14 1 := cmpf .olt main_v19 main_v20
  let main_c_7 : IVec S_ 1 := constantI S_ 1 1#1
  let main_v22 : IVec S_ 1 := (fun x v => Host.reduce IntOp.andi x v reducesTo_S14_S_d0 h_S_) main_v21 main_c_7
  let main_v23 : IVec S_ 1 := andi main_v18 main_v22
  let main_v24 : FVec F S384x4 .f32 := Host.absf main_arg5
  let main_cst_8 : FVec F S_ .f32 := constant S_ .f32 0x7F800000#32
  let main_v25 : FVec F S384x4 .f32 := broadcastInDim S384x4 ![] bcast_S_S384x4 main_cst_8
  let main_v26 : IVec S384x4 1 := cmpf .olt main_v24 main_v25
  let main_c_9 : IVec S_ 1 := constantI S_ 1 1#1
  let main_v27 : IVec S_ 1 := (fun x v => Host.reduce IntOp.andi x v reducesTo_S384x4_S_d0_1 h_S_) main_v26 main_c_9
  let main_v28 : IVec S_ 1 := andi main_v23 main_v27
  let main_v29 : FVec F S4 .f32 := Host.absf main_arg6
  let main_cst_10 : FVec F S_ .f32 := constant S_ .f32 0x7F800000#32
  let main_v30 : FVec F S4 .f32 := broadcastInDim S4 ![] bcast_S_S4 main_cst_10
  let main_v31 : IVec S4 1 := cmpf .olt main_v29 main_v30
  let main_c_11 : IVec S_ 1 := constantI S_ 1 1#1
  let main_v32 : IVec S_ 1 := (fun x v => Host.reduce IntOp.andi x v reducesTo_S4_S_d0 h_S_) main_v31 main_c_11
  let main_v33 : IVec S_ 1 := andi main_v28 main_v32
  main_v33

def fn {F : FTy → Type} [FloatOps F] (main_arg0 : FVec F S8x384x200x176 .f32) (main_arg1 : FVec F S384x2 .f32) (main_arg2 : FVec F S2 .f32) (main_arg3 : FVec F S384x14 .f32) (main_arg4 : FVec F S14 .f32) (main_arg5 : FVec F S384x4 .f32) (main_arg6 : FVec F S4 .f32) : IVec S_ 1 :=
  let main_v0 : FVec F S8x384x200x176 .f32 := Host.absf main_arg0
  let main_cst : FVec F S_ .f32 := constant S_ .f32 0x7F800000#32
  let main_v1 : FVec F S8x384x200x176 .f32 := broadcastInDim S8x384x200x176 ![] bcast_S_S8x384x200x176 main_cst
  let main_v2 : IVec S8x384x200x176 1 := cmpf .olt main_v0 main_v1
  let main_c : IVec S_ 1 := constantI S_ 1 1#1
  let main_v3 : IVec S_ 1 := (fun x v => Host.reduce IntOp.andi x v reducesTo_S8x384x200x176_S_d0_1_2_3 h_S_) main_v2 main_c
  let main_v4 : FVec F S384x2 .f32 := Host.absf main_arg1
  let main_cst_0 : FVec F S_ .f32 := constant S_ .f32 0x7F800000#32
  let main_v5 : FVec F S384x2 .f32 := broadcastInDim S384x2 ![] bcast_S_S384x2 main_cst_0
  let main_v6 : IVec S384x2 1 := cmpf .olt main_v4 main_v5
  let main_c_1 : IVec S_ 1 := constantI S_ 1 1#1
  let main_v7 : IVec S_ 1 := (fun x v => Host.reduce IntOp.andi x v reducesTo_S384x2_S_d0_1 h_S_) main_v6 main_c_1
  let main_v8 : IVec S_ 1 := andi main_v3 main_v7
  let main_v9 : FVec F S2 .f32 := Host.absf main_arg2
  let main_cst_2 : FVec F S_ .f32 := constant S_ .f32 0x7F800000#32
  let main_v10 : FVec F S2 .f32 := broadcastInDim S2 ![] bcast_S_S2 main_cst_2
  let main_v11 : IVec S2 1 := cmpf .olt main_v9 main_v10
  let main_c_3 : IVec S_ 1 := constantI S_ 1 1#1
  let main_v12 : IVec S_ 1 := (fun x v => Host.reduce IntOp.andi x v reducesTo_S2_S_d0 h_S_) main_v11 main_c_3
  let main_v13 : IVec S_ 1 := andi main_v8 main_v12
  let main_v14 : FVec F S384x14 .f32 := Host.absf main_arg3
  let main_cst_4 : FVec F S_ .f32 := constant S_ .f32 0x7F800000#32
  let main_v15 : FVec F S384x14 .f32 := broadcastInDim S384x14 ![] bcast_S_S384x14 main_cst_4
  let main_v16 : IVec S384x14 1 := cmpf .olt main_v14 main_v15
  fn_part1 (F := F) main_arg4 main_arg5 main_arg6 main_v13 main_v16
-- ==== Kernel.lean ====
abbrev S8x384x200x176 : Shape := ⟨4, ![8, 384, 200, 176]⟩
abbrev S384x2 : Shape := ⟨2, ![384, 2]⟩
abbrev S2 : Shape := ⟨1, ![2]⟩
abbrev S384x14 : Shape := ⟨2, ![384, 14]⟩
abbrev S14 : Shape := ⟨1, ![14]⟩
abbrev S384x4 : Shape := ⟨2, ![384, 4]⟩
abbrev S4 : Shape := ⟨1, ![4]⟩
abbrev S384x20 : Shape := ⟨2, ![384, 20]⟩
abbrev S_ : Shape := ⟨0, ![]⟩
abbrev S384x32 : Shape := ⟨2, ![384, 32]⟩
abbrev S20 : Shape := ⟨1, ![20]⟩
abbrev S32 : Shape := ⟨1, ![32]⟩
abbrev S1x32 : Shape := ⟨2, ![1, 32]⟩
abbrev S8x200x176x384 : Shape := ⟨4, ![8, 200, 176, 384]⟩
abbrev S8x200x176x2 : Shape := ⟨4, ![8, 200, 176, 2]⟩
abbrev S8x200x176x14 : Shape := ⟨4, ![8, 200, 176, 14]⟩
abbrev S8x200x176x4 : Shape := ⟨4, ![8, 200, 176, 4]⟩
abbrev S1x40x176x384 : Shape := ⟨4, ![1, 40, 176, 384]⟩
abbrev S1x40x176x2 : Shape := ⟨4, ![1, 40, 176, 2]⟩
abbrev S1x40x176x14 : Shape := ⟨4, ![1, 40, 176, 14]⟩
abbrev S1x40x176x4 : Shape := ⟨4, ![1, 40, 176, 4]⟩
abbrev S40x176x384 : Shape := ⟨3, ![40, 176, 384]⟩
abbrev S7040x384 : Shape := ⟨2, ![7040, 384]⟩
abbrev S7040x32 : Shape := ⟨2, ![7040, 32]⟩
abbrev S7040x2 : Shape := ⟨2, ![7040, 2]⟩
abbrev S40x176x2 : Shape := ⟨3, ![40, 176, 2]⟩
abbrev S7040x14 : Shape := ⟨2, ![7040, 14]⟩
abbrev S40x176x14 : Shape := ⟨3, ![40, 176, 14]⟩
abbrev S7040x4 : Shape := ⟨2, ![7040, 4]⟩
abbrev S40x176x4 : Shape := ⟨3, ![40, 176, 4]⟩
abbrev S8x2x200x176 : Shape := ⟨4, ![8, 2, 200, 176]⟩
abbrev S8x14x200x176 : Shape := ⟨4, ![8, 14, 200, 176]⟩
abbrev S8x4x200x176 : Shape := ⟨4, ![8, 4, 200, 176]⟩

abbrev nBuf : Space → Nat
  | .hbm => 23
  | .vmem => 10
  | .smem => 0
  | _ => 0

abbrev bufTy : (tb : Table) → Fin (tcTables nBuf tb) → BufTy
  | .hbm, ⟨0, _⟩ => ⟨S8x384x200x176, .f32⟩
  | .hbm, ⟨1, _⟩ => ⟨S384x2, .f32⟩
  | .hbm, ⟨2, _⟩ => ⟨S2, .f32⟩
  | .hbm, ⟨3, _⟩ => ⟨S384x14, .f32⟩
  | .hbm, ⟨4, _⟩ => ⟨S14, .f32⟩
  | .hbm, ⟨5, _⟩ => ⟨S384x4, .f32⟩
  | .hbm, ⟨6, _⟩ => ⟨S4, .f32⟩
  | .hbm, ⟨7, _⟩ => ⟨S384x20, .f32⟩
  | .hbm, ⟨8, _⟩ => ⟨S_, .i32⟩
  | .hbm, ⟨9, _⟩ => ⟨S_, .f32⟩
  | .hbm, ⟨10, _⟩ => ⟨S384x32, .f32⟩
  | .hbm, ⟨11, _⟩ => ⟨S20, .f32⟩
  | .hbm, ⟨12, _⟩ => ⟨S_, .i32⟩
  | .hbm, ⟨13, _⟩ => ⟨S_, .f32⟩
  | .hbm, ⟨14, _⟩ => ⟨S32, .f32⟩
  | .hbm, ⟨15, _⟩ => ⟨S1x32, .f32⟩
  | .hbm, ⟨16, _⟩ => ⟨S8x200x176x384, .f32⟩
  | .hbm, ⟨17, _⟩ => ⟨S8x200x176x2, .f32⟩
  | .hbm, ⟨18, _⟩ => ⟨S8x200x176x14, .f32⟩
  | .hbm, ⟨19, _⟩ => ⟨S8x200x176x4, .f32⟩
  | .hbm, ⟨20, _⟩ => ⟨S8x2x200x176, .f32⟩
  | .hbm, ⟨21, _⟩ => ⟨S8x14x200x176, .f32⟩
  | .hbm, ⟨22, _⟩ => ⟨S8x4x200x176, .f32⟩
  | .local _ .vmem, ⟨0, _⟩ => ⟨S1x40x176x384, .f32⟩
  | .local _ .vmem, ⟨1, _⟩ => ⟨S1x40x176x384, .f32⟩
  | .local _ .vmem, ⟨2, _⟩ => ⟨S384x32, .f32⟩
  | .local _ .vmem, ⟨3, _⟩ => ⟨S1x32, .f32⟩
  | .local _ .vmem, ⟨4, _⟩ => ⟨S1x40x176x2, .f32⟩
  | .local _ .vmem, ⟨5, _⟩ => ⟨S1x40x176x2, .f32⟩
  | .local _ .vmem, ⟨6, _⟩ => ⟨S1x40x176x14, .f32⟩
  | .local _ .vmem, ⟨7, _⟩ => ⟨S1x40x176x14, .f32⟩
  | .local _ .vmem, ⟨8, _⟩ => ⟨S1x40x176x4, .f32⟩
  | .local _ .vmem, ⟨9, _⟩ => ⟨S1x40x176x4, .f32⟩
  | _, _ => ⟨S8x384x200x176, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_call1_v0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6_0 : Ref sig .tc := ⟨.hbm, 17, rfl⟩
abbrev main_v6_1 : Ref sig .tc := ⟨.hbm, 18, rfl⟩
abbrev main_v6_2 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 5], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x40x176x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S384x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x40x176x2 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x40x176x14 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x40x176x4 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  concatenates_S384x2_S384x14_S384x4_S384x20_d1 : Shape.Concatenates [S384x2, S384x14, S384x4] S384x20 1
  pads_S384x20_S384x32_000_0120 : S384x20.Pads (![0, 0] : Fin 2 → Nat) ![0, 12] ![0, 0] S384x32
  h_S_ : 0 < S_.numel
  concatenates_S2_S14_S4_S20_d0 : Shape.Concatenates [S2, S14, S4] S20 0
  pads_S20_S32_0120 : S20.Pads (![0] : Fin 1 → Nat) ![12] ![0] S32
  bcast_S32_S1x32_1 : S32.BroadcastsInDim S1x32 (![1] : Fin 1 → Fin S1x32.rank)
  transposes_S8x384x200x176_S8x200x176x384_0_2_3_1 : S8x384x200x176.Transposes [0, 2, 3, 1] S8x200x176x384
  inb_S1x40x176x384_S1x40x176x384_0_0_0_0 : ∀ a, (![0, 0, 0, 0] : Fin 4 → Nat) a + S1x40x176x384.size a ≤ S1x40x176x384.size a
  h_S1x40x176x384 : 0 < S1x40x176x384.numel
  shapeCasts_S1x40x176x384_S40x176x384 : S1x40x176x384.ShapeCasts S40x176x384
  shapeCasts_S40x176x384_S7040x384 : S40x176x384.ShapeCasts S7040x384
  inb_S384x32_S384x32_0_0 : ∀ a, (![0, 0] : Fin 2 → Nat) a + S384x32.size a ≤ S384x32.size a
  h_S384x32 : 0 < S384x32.numel
  shapeCasts_S384x32_S384x32 : S384x32.ShapeCasts S384x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S7040x32 : S1x32.Broadcasts S7040x32
  slices_S7040x32_o0_0_S7040x2 : S7040x32.Slices ![0, 0] S7040x2
  shapeCasts_S7040x2_S40x176x2 : S7040x2.ShapeCasts S40x176x2
  inb_S1x40x176x2_S1x40x176x2_0_0_0_0 : ∀ a, (![0, 0, 0, 0] : Fin 4 → Nat) a + S1x40x176x2.size a ≤ S1x40x176x2.size a
  h_S1x40x176x2 : 0 < S1x40x176x2.numel
  shapeCasts_S1x40x176x2_S40x176x2 : S1x40x176x2.ShapeCasts S40x176x2
  shapeCasts_S40x176x2_S1x40x176x2 : S40x176x2.ShapeCasts S1x40x176x2
  slices_S7040x32_o0_2_S7040x14 : S7040x32.Slices ![0, 2] S7040x14
  shapeCasts_S7040x14_S40x176x14 : S7040x14.ShapeCasts S40x176x14
  inb_S1x40x176x14_S1x40x176x14_0_0_0_0 : ∀ a, (![0, 0, 0, 0] : Fin 4 → Nat) a + S1x40x176x14.size a ≤ S1x40x176x14.size a
  h_S1x40x176x14 : 0 < S1x40x176x14.numel
  shapeCasts_S1x40x176x14_S40x176x14 : S1x40x176x14.ShapeCasts S40x176x14
  shapeCasts_S40x176x14_S1x40x176x14 : S40x176x14.ShapeCasts S1x40x176x14
  slices_S7040x32_o0_16_S7040x4 : S7040x32.Slices ![0, 16] S7040x4
  shapeCasts_S7040x4_S40x176x4 : S7040x4.ShapeCasts S40x176x4
  inb_S1x40x176x4_S1x40x176x4_0_0_0_0 : ∀ a, (![0, 0, 0, 0] : Fin 4 → Nat) a + S1x40x176x4.size a ≤ S1x40x176x4.size a
  h_S1x40x176x4 : 0 < S1x40x176x4.numel
  shapeCasts_S1x40x176x4_S40x176x4 : S1x40x176x4.ShapeCasts S40x176x4
  shapeCasts_S40x176x4_S1x40x176x4 : S40x176x4.ShapeCasts S1x40x176x4
  transposes_S8x200x176x2_S8x2x200x176_0_3_1_2 : S8x200x176x2.Transposes [0, 3, 1, 2] S8x2x200x176
  transposes_S8x200x176x14_S8x14x200x176_0_3_1_2 : S8x200x176x14.Transposes [0, 3, 1, 2] S8x14x200x176
  transposes_S8x200x176x4_S8x4x200x176_0_3_1_2 : S8x200x176x4.Transposes [0, 3, 1, 2] S8x4x200x176
  dot_S7040x384_S384x32_S7040x32_1_0_0_1_n_n_wf : DotDims.WF S7040x384 S384x32 S7040x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x40x176x384.size a ≤ S8x200x176x384.size a
  hwx0_0 : ∀ i : grid0.Coords, EltTy.bits .f32 = 32 ∨ (Rect.block (s := S8x200x176x384) S1x40x176x384.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S384x32.size a ≤ S384x32.size a
  hwx0_1 : ∀ i : grid0.Coords, EltTy.bits .f32 = 32 ∨ (Rect.block (s := S384x32) S384x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x32.size a ≤ S1x32.size a
  hwx0_2 : ∀ i : grid0.Coords, EltTy.bits .f32 = 32 ∨ (Rect.block (s := S1x32) S1x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x40x176x2.size a ≤ S8x200x176x2.size a
  hwx0_3 : ∀ i : grid0.Coords, EltTy.bits .f32 = 32 ∨ (Rect.block (s := S8x200x176x2) S1x40x176x2.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x40x176x14.size a ≤ S8x200x176x14.size a
  hwx0_4 : ∀ i : grid0.Coords, EltTy.bits .f32 = 32 ∨ (Rect.block (s := S8x200x176x14) S1x40x176x14.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x40x176x4.size a ≤ S8x200x176x4.size a
  hwx0_5 : ∀ i : grid0.Coords, EltTy.bits .f32 = 32 ∨ (Rect.block (s := S8x200x176x4) S1x40x176x4.size (cc0_transform_5 i) (hinb0_5 i)).WholeWords (EltTy.packing .f32)

variable [Facts₀]

def dot_S7040x384_S384x32_S7040x32_1_0_0_1_n_n : DotDims S7040x384 S384x32 S7040x32 where
  lhsContracting := [1]
  rhsContracting := [0]
  lhsNonContracting := [0]
  rhsNonContracting := [1]
  lhsBatch := []
  rhsBatch := []
  wf := dot_S7040x384_S384x32_S7040x32_1_0_0_1_n_n_wf

abbrev win0_0 : Pipeline.Window sig grid0 :=
  Pipeline.Window.ofSpec (Memref.whole main_v5) S1x40x176x384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S384x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6_0) S1x40x176x2.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6_1) S1x40x176x14.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v6_2) S1x40x176x4.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8x384x200x176 : Shape := ⟨4, ![8, 384, 200, 176]⟩
abbrev S384x2 : Shape := ⟨2, ![384, 2]⟩
abbrev S2 : Shape := ⟨1, ![2]⟩
abbrev S384x14 : Shape := ⟨2, ![384, 14]⟩
abbrev S14 : Shape := ⟨1, ![14]⟩
abbrev S384x4 : Shape := ⟨2, ![384, 4]⟩
abbrev S4 : Shape := ⟨1, ![4]⟩
abbrev S8x200x176x384 : Shape := ⟨4, ![8, 200, 176, 384]⟩
abbrev S8x200x176x2 : Shape := ⟨4, ![8, 200, 176, 2]⟩
abbrev S1x1x1x2 : Shape := ⟨4, ![1, 1, 1, 2]⟩
abbrev S8x2x200x176 : Shape := ⟨4, ![8, 2, 200, 176]⟩
abbrev S8x200x176x14 : Shape := ⟨4, ![8, 200, 176, 14]⟩
abbrev S1x1x1x14 : Shape := ⟨4, ![1, 1, 1, 14]⟩
abbrev S8x14x200x176 : Shape := ⟨4, ![8, 14, 200, 176]⟩
abbrev S8x200x176x4 : Shape := ⟨4, ![8, 200, 176, 4]⟩
abbrev S1x1x1x4 : Shape := ⟨4, ![1, 1, 1, 4]⟩
abbrev S8x4x200x176 : Shape := ⟨4, ![8, 4, 200, 176]⟩

abbrev nBuf : Space → Nat
  | .hbm => 23
  | .vmem => 0
  | .smem => 0
  | _ => 0

abbrev bufTy : (tb : Table) → Fin (tcTables nBuf tb) → BufTy
  | .hbm, ⟨0, _⟩ => ⟨S8x384x200x176, .f32⟩
  | .hbm, ⟨1, _⟩ => ⟨S384x2, .f32⟩
  | .hbm, ⟨2, _⟩ => ⟨S2, .f32⟩
  | .hbm, ⟨3, _⟩ => ⟨S384x14, .f32⟩
  | .hbm, ⟨4, _⟩ => ⟨S14, .f32⟩
  | .hbm, ⟨5, _⟩ => ⟨S384x4, .f32⟩
  | .hbm, ⟨6, _⟩ => ⟨S4, .f32⟩
  | .hbm, ⟨7, _⟩ => ⟨S8x200x176x384, .f32⟩
  | .hbm, ⟨8, _⟩ => ⟨S8x200x176x2, .f32⟩
  | .hbm, ⟨9, _⟩ => ⟨S1x1x1x2, .f32⟩
  | .hbm, ⟨10, _⟩ => ⟨S8x200x176x2, .f32⟩
  | .hbm, ⟨11, _⟩ => ⟨S8x200x176x2, .f32⟩
  | .hbm, ⟨12, _⟩ => ⟨S8x2x200x176, .f32⟩
  | .hbm, ⟨13, _⟩ => ⟨S8x200x176x14, .f32⟩
  | .hbm, ⟨14, _⟩ => ⟨S1x1x1x14, .f32⟩
  | .hbm, ⟨15, _⟩ => ⟨S8x200x176x14, .f32⟩
  | .hbm, ⟨16, _⟩ => ⟨S8x200x176x14, .f32⟩
  | .hbm, ⟨17, _⟩ => ⟨S8x14x200x176, .f32⟩
  | .hbm, ⟨18, _⟩ => ⟨S8x200x176x4, .f32⟩
  | .hbm, ⟨19, _⟩ => ⟨S1x1x1x4, .f32⟩
  | .hbm, ⟨20, _⟩ => ⟨S8x200x176x4, .f32⟩
  | .hbm, ⟨21, _⟩ => ⟨S8x200x176x4, .f32⟩
  | .hbm, ⟨22, _⟩ => ⟨S8x4x200x176, .f32⟩
  | _, _ => ⟨S8x384x200x176, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]

class Facts₀ : Prop where
  transposes_S8x384x200x176_S8x200x176x384_0_2_3_1 : S8x384x200x176.Transposes [0, 2, 3, 1] S8x200x176x384
  bcast_S2_S1x1x1x2_3 : S2.BroadcastsInDim S1x1x1x2 (![3] : Fin 1 → Fin S1x1x1x2.rank)
  bcast_S1x1x1x2_S8x200x176x2_0_1_2_3 : S1x1x1x2.BroadcastsInDim S8x200x176x2 (![0, 1, 2, 3] : Fin 4 → Fin S8x200x176x2.rank)
  transposes_S8x200x176x2_S8x2x200x176_0_3_1_2 : S8x200x176x2.Transposes [0, 3, 1, 2] S8x2x200x176
  bcast_S14_S1x1x1x14_3 : S14.BroadcastsInDim S1x1x1x14 (![3] : Fin 1 → Fin S1x1x1x14.rank)
  bcast_S1x1x1x14_S8x200x176x14_0_1_2_3 : S1x1x1x14.BroadcastsInDim S8x200x176x14 (![0, 1, 2, 3] : Fin 4 → Fin S8x200x176x14.rank)
  transposes_S8x200x176x14_S8x14x200x176_0_3_1_2 : S8x200x176x14.Transposes [0, 3, 1, 2] S8x14x200x176
  bcast_S4_S1x1x1x4_3 : S4.BroadcastsInDim S1x1x1x4 (![3] : Fin 1 → Fin S1x1x1x4.rank)
  bcast_S1x1x1x4_S8x200x176x4_0_1_2_3 : S1x1x1x4.BroadcastsInDim S8x200x176x4 (![0, 1, 2, 3] : Fin 4 → Fin S8x200x176x4.rank)
  transposes_S8x200x176x4_S8x4x200x176_0_3_1_2 : S8x200x176x4.Transposes [0, 3, 1, 2] S8x4x200x176
  dot_S8x200x176x384_S384x2_S8x200x176x2_3_0_012_1_n_n_wf : DotDims.WF S8x200x176x384 S384x2 S8x200x176x2 [3] [0] [0, 1, 2] [1] [] []
  dot_S8x200x176x384_S384x14_S8x200x176x14_3_0_012_1_n_n_wf : DotDims.WF S8x200x176x384 S384x14 S8x200x176x14 [3] [0] [0, 1, 2] [1] [] []
  dot_S8x200x176x384_S384x4_S8x200x176x4_3_0_012_1_n_n_wf : DotDims.WF S8x200x176x384 S384x4 S8x200x176x4 [3] [0] [0, 1, 2] [1] [] []

variable [Facts₀]

def dot_S8x200x176x384_S384x2_S8x200x176x2_3_0_012_1_n_n : DotDims S8x200x176x384 S384x2 S8x200x176x2 where
  lhsContracting := [3]
  rhsContracting := [0]
  lhsNonContracting := [0, 1, 2]
  rhsNonContracting := [1]
  lhsBatch := []
  rhsBatch := []
  wf := dot_S8x200x176x384_S384x2_S8x200x176x2_3_0_012_1_n_n_wf
def dot_S8x200x176x384_S384x14_S8x200x176x14_3_0_012_1_n_n : DotDims S8x200x176x384 S384x14 S8x200x176x14 where
  lhsContracting := [3]
  rhsContracting := [0]
  lhsNonContracting := [0, 1, 2]
  rhsNonContracting := [1]
  lhsBatch := []
  rhsBatch := []
  wf := dot_S8x200x176x384_S384x14_S8x200x176x14_3_0_012_1_n_n_wf
def dot_S8x200x176x384_S384x4_S8x200x176x4_3_0_012_1_n_n : DotDims S8x200x176x384 S384x4 S8x200x176x4 where
  lhsContracting := [3]
  rhsContracting := [0]
  lhsNonContracting := [0, 1, 2]
  rhsNonContracting := [1]
  lhsBatch := []
  rhsBatch := []
  wf := dot_S8x200x176x384_S384x4_S8x200x176x4_3_0_012_1_n_n_wf

class Facts : Prop extends Facts₀ where

variable [Facts]
-- ==== Proof.HeadsRunBits.lean ====
/-
  Three 1×1 convolution heads computed by ONE pipelined matrix product. @main lays the three weight matrices side by
  side into a 384×20 matrix and pads it with twelve zero columns to 384×32, does the same with the three bias vectors
  (giving them a leading unit axis), moves the feature map to channels-last, and then runs the kernel on an 8×5 grid:
  point (bi, hi) takes rows 40·hi … 40·hi+39 of image bi as a 7040×384 matrix, multiplies it by the padded weights, adds
  the padded bias row, and stores columns 0–1, 2–15 and 16–19 of the 7040×32 product into its three output blocks. Three
  transposes after the region move the channel axis of each result back to position 1.

  This module runs that program: what each buffer holds when the region is entered, what the body leaves in each
  output block as a function of the three input blocks at the point, the per-point obligation of the body, and the
  run of @main to the state where every array the pipeline wrote holds its blocks and every other buffer holds what the
  three transposes leave. From that run the argument arrays are read back unchanged.
-/
import proofs.«168696_g47064251629653_cont_8to1c4_533_7_alg».proof.Proof.Gen.Kernel.Launch
import proofs.«168696_g47064251629653_cont_8to1c4_533_7_alg».proof.Proof.Gen.Kernel.Skeleton
import proofs.«168696_g47064251629653_cont_8to1c4_533_7_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Heads

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers when the region is entered -/

/-- Core `c`'s buffers after the ten host operations that precede the region (the two concatenations, the two paddings
    with their scalar zero, the bias row's unit axis, the feature map's move to channels-last), from the launch contents. -/
abbrev entryVal (c : Dev nD) : Valuation τ sig (Elt F) :=
  StableHlo.after (List.flatten [hostOps0, hostOps0_1, hostOps0_2, hostOps0_3, hostOps0_4]) (fun b => m (c, b))
/-- The same read at one TensorCore buffer. -/
abbrev entryAt (c : Dev nD) (b : Ref sig .tc) : Buf (Elt F) ((c : Thread nD τ).loc b) := entryVal m c (Proc.devRef .tc b)

/-- No host operation of @main allocates a buffer. -/
theorem fresh0 : (hostOps0 : List (HloOp τ sig (Elt F))).Forall fun op => op.fresh = ∅ := by
  simp only [List.Forall]; repeat' constructor
theorem fresh0_1 : (hostOps0_1 : List (HloOp τ sig (Elt F))).Forall fun op => op.fresh = ∅ := by
  simp only [List.Forall]; repeat' constructor
theorem fresh0_2 : (hostOps0_2 : List (HloOp τ sig (Elt F))).Forall fun op => op.fresh = ∅ := by
  simp only [List.Forall]; repeat' constructor
theorem fresh0_3 : (hostOps0_3 : List (HloOp τ sig (Elt F))).Forall fun op => op.fresh = ∅ := by
  simp only [List.Forall]; repeat' constructor
theorem fresh0_4 : (hostOps0_4 : List (HloOp τ sig (Elt F))).Forall fun op => op.fresh = ∅ := by
  simp only [List.Forall]; repeat' constructor
theorem fresh1 : (hostOps1 : List (HloOp τ sig (Elt F))).Forall fun op => op.fresh = ∅ := by
  simp only [List.Forall]; repeat' constructor

/-- @main is the ten host operations, the region, the three transposes: from the launch contents it reduces to the region
    entered at `entryAt` and continued by the transposes. -/
theorem main_around (𝒱₀ : Variants) : Pipeline.HMainK (Ix := Unit) (Name := ℕ) (U := UR sig nD τ) (Lvl := ℕ) cfgs 0 defs₀ 𝒱₀ m (main (F := F)) (entryAt m)
      (fun _ => Pipeline.chain [StableHlo.seq hostOps1]) :=
  Pipeline.hmain_around cfgs 0 defs₀ 𝒱₀ m main [hostOps0, hostOps0_1, hostOps0_2, hostOps0_3, hostOps0_4] [hostOps1]
    (by simp only [List.Forall]; exact ⟨hostOps0_sub, hostOps0_1_sub, hostOps0_2_sub, hostOps0_3_sub, hostOps0_4_sub⟩)
    (by simp only [List.Forall]; exact ⟨fresh0, fresh0_1, fresh0_2, fresh0_3, fresh0_4⟩) main_chain

/-- The transposes touch only the pipeline's arrays (each reads one result array) and buffers that bypass the region (each
    writes one), -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- allocate nothing, -/
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp fresh1) op hop
/-- and write none of the pipeline's six arrays. -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl | rfl
  all_goals intro w; fin_cases w <;> simp only [StableHlo.unary_writes, Finset.mem_singleton] <;> exact StableHlo.devRef_ne_of_ne (by decide)

/-- A buffer that none of the ten host operations before the region writes is found by the region as launched. -/
theorem entry_of_unwritten (c : Dev nD) (b : Ref sig .tc)
    (hb : ∀ op ∈ (List.flatten [hostOps0, hostOps0_1, hostOps0_2, hostOps0_3, hostOps0_4] : List (HloOp τ sig (Elt F))), Proc.devRef .tc b ∉ op.writes) :
    entryAt m c b = m ((c : Thread nD τ).loc b) :=
  StableHlo.after_of_forall_not_mem (b := Proc.devRef .tc b) _ _ hb

/-- Deciding that no operation of a stretch writes a given argument: each operation writes its one result buffer, which is
    another reference. -/
local macro "not_written" : tactic => `(tactic| (
  refine List.forall_iff_forall_mem.mp ?_
  simp only [hostOps0, hostOps0_1, hostOps0_2, hostOps0_3, hostOps0_4, hostOps1, List.flatten_cons, List.flatten_nil, List.append_nil, List.cons_append,
    List.nil_append, List.Forall, StableHlo.nullary_writes, StableHlo.unary_writes, StableHlo.binary_writes, StableHlo.nary_writes, Finset.mem_singleton]
  repeat' apply And.intro
  all_goals exact StableHlo.devRef_ne_of_ne (by decide)))

theorem entry_arg0 (c : Dev nD) : entryAt m c main_arg0 = m ((c : Thread nD τ).loc main_arg0) := entry_of_unwritten m c _ (by not_written)
theorem entry_arg1 (c : Dev nD) : entryAt m c main_arg1 = m ((c : Thread nD τ).loc main_arg1) := entry_of_unwritten m c _ (by not_written)
theorem entry_arg2 (c : Dev nD) : entryAt m c main_arg2 = m ((c : Thread nD τ).loc main_arg2) := entry_of_unwritten m c _ (by not_written)
theorem entry_arg3 (c : Dev nD) : entryAt m c main_arg3 = m ((c : Thread nD τ).loc main_arg3) := entry_of_unwritten m c _ (by not_written)
theorem entry_arg4 (c : Dev nD) : entryAt m c main_arg4 = m ((c : Thread nD τ).loc main_arg4) := entry_of_unwritten m c _ (by not_written)
theorem entry_arg5 (c : Dev nD) : entryAt m c main_arg5 = m ((c : Thread nD τ).loc main_arg5) := entry_of_unwritten m c _ (by not_written)
theorem entry_arg6 (c : Dev nD) : entryAt m c main_arg6 = m ((c : Thread nD τ).loc main_arg6) := entry_of_unwritten m c _ (by not_written)

/-- After the transposes, a buffer that is no array of the pipeline and that no transpose writes holds what the region
    found in it. -/
theorem exit_of_unwritten (dats : (p : Fin 1) → (c : Dev nD) → Dat τ (Elt F) Unit ℕ (UR sig nD τ) ℕ (cfgs p) c) (c : Dev nD) (b : Ref sig .tc)
    (harr : ∀ w, Pipeline.arrRef spec0 w ≠ b)
    (hb : ∀ op ∈ (List.flatten [hostOps1] : List (HloOp τ sig (Elt F))), Proc.devRef .tc b ∉ op.writes) :
    Pipeline.afterTail₀ cfgs dats 0 (entryVal m) [hostOps1] c b = entryAt m c b := by
  unfold Pipeline.afterTail₀
  rw [StableHlo.after_of_forall_not_mem (b := Proc.devRef .tc b) _ _ hb, Pipeline.withArrays_of_ne _ c (entryVal m c) _ b harr]

/-! ## The windows' blocks -/

/-- Window `w`'s block at grid point `t`, cut out of its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (entryAt m c (Pipeline.arrRef spec0 w))

/-- The feature-map window's staging buffer holds its block at every point (it is fetched at every point; the lemma does
    not use that), for any proof data over the entry contents whose body leaves the block in place. -/
theorem found0_of {c : Dev nD} (dat : Dat τ (Elt F) Unit ℕ (UR sig nD τ) ℕ cfg0 c) (hA : dat.A 0 = entryAt m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The weight window is fetched at the first point only and its block index never moves: its buffer holds the whole
    padded matrix at every point. -/
theorem found1_of {c : Dev nD} (dat : Dat τ (Elt F) Unit ℕ (UR sig nD τ) ℕ cfg0 c) (hA : dat.A 1 = entryAt m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- The bias window likewise. -/
theorem found2_of {c : Dev nD} (dat : Dat τ (Elt F) Unit ℕ (UR sig nD τ) ℕ cfg0 c) (hA : dat.A 2 = entryAt m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's accesses and what it leaves -/

/-- The whole-buffer rectangles through which the body loads its three inputs and stores its three outputs. -/
abbrev rX : Rect S1x40x176x384 := Rect.unit (s := S1x40x176x384) ![0, 0, 0, 0] S1x40x176x384.size inb_S1x40x176x384_S1x40x176x384_0_0_0_0
abbrev rW : Rect S384x32 := Rect.unit (s := S384x32) ![0, 0] S384x32.size inb_S384x32_S384x32_0_0
abbrev rB : Rect S1x32 := Rect.unit (s := S1x32) ![0, 0] S1x32.size inb_S1x32_S1x32_0_0
abbrev rCls : Rect S1x40x176x2 := Rect.unit (s := S1x40x176x2) ![0, 0, 0, 0] S1x40x176x2.size inb_S1x40x176x2_S1x40x176x2_0_0_0_0
abbrev rReg : Rect S1x40x176x14 := Rect.unit (s := S1x40x176x14) ![0, 0, 0, 0] S1x40x176x14.size inb_S1x40x176x14_S1x40x176x14_0_0_0_0
abbrev rDir : Rect S1x40x176x4 := Rect.unit (s := S1x40x176x4) ![0, 0, 0, 0] S1x40x176x4.size inb_S1x40x176x4_S1x40x176x4_0_0_0_0

/-- What the body leaves in the classification block, from the three input blocks: its one store, which fills the block,
    of columns 0–1 of the product plus bias. -/
def clsOut (x : Vec F S1x40x176x384 .f32) (w : Vec F S384x32 .f32) (b : Vec F S1x32 .f32) : Vec F S1x40x176x2 .f32 :=
  View.canon [⟨rCls, k0_pay2 (View.ld x rX) (View.ld w rW) (View.ld b rB)⟩]
/-- In the regression block: columns 2–15. -/
def regOut (x : Vec F S1x40x176x384 .f32) (w : Vec F S384x32 .f32) (b : Vec F S1x32 .f32) : Vec F S1x40x176x14 .f32 :=
  View.canon [⟨rReg, k0_pay3 (View.ld x rX) (View.ld w rW) (View.ld b rB)⟩]
/-- In the direction block: columns 16–19. -/
def dirOut (x : Vec F S1x40x176x384 .f32) (w : Vec F S384x32 .f32) (b : Vec F S1x32 .f32) : Vec F S1x40x176x4 .f32 :=
  View.canon [⟨rDir, k0_pay4 (View.ld x rX) (View.ld w rW) (View.ld b rB)⟩]

/-- Each output's one store is through the block's whole rectangle, so it covers the block. -/
theorem cls_cover (p : Vec F S1x40x176x2 .f32) (y : S1x40x176x2.Idx) :
    ∃ pc ∈ ([⟨rCls, p⟩] : List (View.Piece (Elt F) S1x40x176x2 .f32)), y ∈ pc.1.set :=
  View.cover_of_tiled [⟨rCls, p⟩] S1x40x176x2.size (by rfl) y
theorem reg_cover (p : Vec F S1x40x176x14 .f32) (y : S1x40x176x14.Idx) :
    ∃ pc ∈ ([⟨rReg, p⟩] : List (View.Piece (Elt F) S1x40x176x14 .f32)), y ∈ pc.1.set :=
  View.cover_of_tiled [⟨rReg, p⟩] S1x40x176x14.size (by rfl) y
theorem dir_cover (p : Vec F S1x40x176x4 .f32) (y : S1x40x176x4.Idx) :
    ∃ pc ∈ ([⟨rDir, p⟩] : List (View.Piece (Elt F) S1x40x176x4 .f32)), y ∈ pc.1.set :=
  View.cover_of_tiled [⟨rDir, p⟩] S1x40x176x4.size (by rfl) y

/-! ## The body's triple -/

set_option maxHeartbeats 1000000 in
/-- The body on whole staging buffers — the three inputs' at read contents `x`, `w`, `b`, the three outputs' at anything —
    runs to the continuation with the inputs' as they were and each output's at its store's payload. (The body also loads
    each output buffer before storing into it; nothing it stores depends on those loads.) -/
theorem head_body (c : Dev nD) (E : Set ℕ) (i : grid0.Coords)
    (arg2 : Memref sig .tc .vmem S1x40x176x384 .f32) (harg2 : arg2.IsWhole) (arg3 : Memref sig .tc .vmem S384x32 .f32) (harg3 : arg3.IsWhole)
    (arg4 : Memref sig .tc .vmem S1x32 .f32) (harg4 : arg4.IsWhole) (arg5 : Memref sig .tc .vmem S1x40x176x2 .f32) (harg5 : arg5.IsWhole)
    (arg6 : Memref sig .tc .vmem S1x40x176x14 .f32) (harg6 : arg6.IsWhole) (arg7 : Memref sig .tc .vmem S1x40x176x4 .f32) (harg7 : arg7.IsWhole)
    (x : Vec F S1x40x176x384 .f32) (w : Vec F S384x32 .f32) (b : Vec F S1x32 .f32) (K : PUnit → sProp 𝕄) :
    iprop(owns (c : Thread nD τ) arg2 fullShare x ∗ owns (c : Thread nD τ) arg3 fullShare w ∗ owns (c : Thread nD τ) arg4 fullShare b
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg2 fullShare x ∗ owns (c : Thread nD τ) arg3 fullShare w ∗ owns (c : Thread nD τ) arg4 fullShare b
            ∗ owns (c : Thread nD τ) arg5 fullShare (clsOut x w b) ∗ owns (c : Thread nD τ) arg6 fullShare (regOut x w b)
            ∗ owns (c : Thread nD τ) arg7 fullShare (dirOut x w b)) -∗ K ⟨⟩))
      ⊢ wp frame (wpE (defs₀ (F := F)) Variants.none c none) E
          (cc0__head_kernel i arg2 harg2 arg3 harg3 arg4 harg4 arg5 harg5 arg6 harg6 arg7 harg7) K := by
  simp only [cc0__head_kernel_eq_skeleton]; unfold cc0__head_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cls_cover _)
  isplitl [H4]
  · iexists _; isplitr
    swap; · iexact H4
    ipureintro
    exact View.read_writes_eq_canon _ _ _ (reg_cover _)
  iexists _; isplitr
  swap; · iexact H5
  ipureintro
  exact View.read_writes_eq_canon _ _ _ (dir_cover _)

/-! ## The pipeline's proof data -/

/-- The proof data of the one pipeline on core `c`: each array as the region finds it; after the body at point `t` each
    input's buffer still at its block and each output's at the body's store for the three input blocks of the point;
    the invariant is the scoped rest and the generator register, which the body does not touch; nothing is owed and every
    share is whole. -/
def blocksData (_ : Fin 1) (c : Dev nD) : Dat τ (Elt F) Unit ℕ (UR sig nD τ) ℕ cfg0 c where
  A w := entryAt m c (Pipeline.arrRef spec0 w)
  after w t := match w with
    | ⟨0, _⟩ => iblk m c 0 t
    | ⟨1, _⟩ => iblk m c 1 t
    | ⟨2, _⟩ => iblk m c 2 t
    | ⟨3, _⟩ => clsOut (iblk m c 0 t) (iblk m c 1 t) (iblk m c 2 t)
    | ⟨4, _⟩ => regOut (iblk m c 0 t) (iblk m c 1 t) (iblk m c 2 t)
    | ⟨5, _⟩ => dirOut (iblk m c 0 t) (iblk m c 1 t) (iblk m c 2 t)
  Φ _ := Pipeline.ΦA spec0 c
  q _ := fullShare
  owed _ := 0

/-- The proof data's arrays are the entry contents, by projecting the definition. -/
theorem arrays_eq (c : Dev nD) (w : Fin cfg0.W) : (blocksData m 0 c).A w = entryAt m c (Pipeline.arrRef spec0 w) := by
  dsimp only [blocksData]

/-- What the body leaves, window by window. -/
theorem after_x (c : Dev nD) (t : Fin cfg0.N) : (blocksData m 0 c).after 0 t = iblk m c 0 t := by dsimp only [blocksData]
theorem after_w (c : Dev nD) (t : Fin cfg0.N) : (blocksData m 0 c).after 1 t = iblk m c 1 t := by dsimp only [blocksData]
theorem after_b (c : Dev nD) (t : Fin cfg0.N) : (blocksData m 0 c).after 2 t = iblk m c 2 t := by dsimp only [blocksData]
theorem after_cls (c : Dev nD) (t : Fin cfg0.N) :
    (blocksData m 0 c).after 3 t = clsOut (iblk m c 0 t) (iblk m c 1 t) (iblk m c 2 t) := by dsimp only [blocksData]
theorem after_reg (c : Dev nD) (t : Fin cfg0.N) :
    (blocksData m 0 c).after 4 t = regOut (iblk m c 0 t) (iblk m c 1 t) (iblk m c 2 t) := by dsimp only [blocksData]
theorem after_dir (c : Dev nD) (t : Fin cfg0.N) :
    (blocksData m 0 c).after 5 t = dirOut (iblk m c 0 t) (iblk m c 1 t) (iblk m c 2 t) := by dsimp only [blocksData]

/-- Each input's current staging buffer holds its block at every point. -/
theorem found_x (c : Dev nD) (t : Fin cfg0.N) (d) : (blocksData m 0 c).before 0 t d = iblk m c 0 t :=
  found0_of m (blocksData m 0 c) (arrays_eq m c 0) (after_x m c) t d
theorem found_w (c : Dev nD) (t : Fin cfg0.N) (d) : (blocksData m 0 c).before 1 t d = iblk m c 1 t :=
  found1_of m (blocksData m 0 c) (arrays_eq m c 1) (after_w m c) t d
theorem found_b (c : Dev nD) (t : Fin cfg0.N) (d) : (blocksData m 0 c).before 2 t d = iblk m c 2 t :=
  found2_of m (blocksData m 0 c) (arrays_eq m c 2) (after_b m c) t d

/-! ## The body obligation at a generic point -/

/-- What the body is called with at point `t`, the six windows one by one, -/
def pointPre (c : Dev nD) (t : Fin cfg0.N) : sProp 𝕄 :=
  iprop((blocksData m 0 c).Φ t.castSucc ∗ (blocksData m 0 c).owesAt () t.castSucc
    ∗ (∃ d, owns (c : Thread nD τ) (st0_0 t) fullShare ((blocksData m 0 c).before 0 t d))
    ∗ (∃ d, owns (c : Thread nD τ) (st0_1 t) fullShare ((blocksData m 0 c).before 1 t d))
    ∗ (∃ d, owns (c : Thread nD τ) (st0_2 t) fullShare ((blocksData m 0 c).before 2 t d))
    ∗ (∃ d, owns (c : Thread nD τ) (st0_3 t) fullShare ((blocksData m 0 c).before 3 t d))
    ∗ (∃ d, owns (c : Thread nD τ) (st0_4 t) fullShare ((blocksData m 0 c).before 4 t d))
    ∗ (∃ d, owns (c : Thread nD τ) (st0_5 t) fullShare ((blocksData m 0 c).before 5 t d)))

/-- and what it returns. -/
def pointPost (c : Dev nD) (t : Fin cfg0.N) : sProp 𝕄 :=
  iprop((blocksData m 0 c).Φ t.succ ∗ (blocksData m 0 c).owesAt () t.succ
    ∗ owns (c : Thread nD τ) (st0_0 t) fullShare ((blocksData m 0 c).after 0 t)
    ∗ owns (c : Thread nD τ) (st0_1 t) fullShare ((blocksData m 0 c).after 1 t)
    ∗ owns (c : Thread nD τ) (st0_2 t) fullShare ((blocksData m 0 c).after 2 t)
    ∗ owns (c : Thread nD τ) (st0_3 t) fullShare ((blocksData m 0 c).after 3 t)
    ∗ owns (c : Thread nD τ) (st0_4 t) fullShare ((blocksData m 0 c).after 4 t)
    ∗ owns (c : Thread nD τ) (st0_5 t) fullShare ((blocksData m 0 c).after 5 t))

/-- The body at any point: the three inputs' buffers hold their blocks, so `head_body` applies at those blocks; the
    invariant and what the core owes pass through unread. -/
theorem point_body (c : Dev nD) (t : Fin cfg0.N) :
    pointPre m c t ⊢ wp frame (wpE (defs₀ (F := F)) Variants.none c none) Set.univ (bodyAt0 t) (fun _ => pointPost m c t) := by
  unfold pointPre pointPost bodyAt0
  simp only [found_x, found_w, found_b]
  rw [show (blocksData m 0 c).Φ t.succ = (blocksData m 0 c).Φ t.castSucc from rfl,
    show (blocksData m 0 c).owesAt () t.succ = (blocksData m 0 c).owesAt () t.castSucc from rfl,
    after_x, after_w, after_b, after_cls, after_reg, after_dir]
  iintro ⟨HΦ, Ho, ⟨%d0, H0⟩, ⟨%d1, H1⟩, ⟨%d2, H2⟩, ⟨%d3, H3⟩, ⟨%d4, H4⟩, ⟨%d5, H5⟩⟩
  iapply (head_body c Set.univ (grid0.coords t) _ _ _ _ _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline library's body obligation, at every point. -/
theorem body_ok (c : Dev nD) : BodyObligation (blocksData (F := F) m 0 c) (defs₀ (F := F)) Variants.none () Set.univ := fun t => by
  rw [bigSep_W0, bigSep_W0]
  exact point_body m c t

/-! ## The run of @main -/

set_option backward.isDefEq.respectTransparency.types false in
/-- From any memory with zero counters, every weakly fair execution of @main terminates, faulting nowhere, in a state where
    each of the pipeline's six arrays holds what the proof data compute for it after the last point — an input its entry
    contents, an output those overwritten block by block — and every other unscoped buffer what the three transposes leave
    from there. -/
theorem run_main : θ_run defs (onTc (τ := τ) (main (F := F))) (s₀ m ρ)
    (Pipeline.FramePost cfgs (blocksData m) 0 (Pipeline.afterTail₀ cfgs (blocksData m) 0 (entryVal m) [hostOps1])) :=
  Pipeline.θ_run_frame_around cfgs (blocksData m) (0 : Fin 1) launch0 defs₀ Variants.none m ρ main
    (hbody := fun c => (body_ok m c).loose) (hshare := fun c => (blocksData m 0 c).share_full fun _ => rfl)
    (howed := fun _ _ => rfl) (V₀ := entryVal m) (opss := [hostOps1]) (hsub := tail_sub) (hfresh := tail_fresh) (hkeep := tail_keeps)
    (hmain := main_around m Variants.none) (hA := arrays_eq m) (hΦ := fun _ _ => rfl)

/-- Each argument array ends as launched: no window stages it, no transpose writes it, and no host operation before the
    region wrote it. -/
theorem exit_arg0 (c : Dev nD) : Pipeline.afterTail₀ cfgs (blocksData m) 0 (entryVal m) [hostOps1] c main_arg0 = m ((c : Thread nD τ).loc main_arg0) :=
  (exit_of_unwritten m (blocksData m) c main_arg0 (by decide) (by not_written)).trans (entry_arg0 m c)
theorem exit_arg1 (c : Dev nD) : Pipeline.afterTail₀ cfgs (blocksData m) 0 (entryVal m) [hostOps1] c main_arg1 = m ((c : Thread nD τ).loc main_arg1) :=
  (exit_of_unwritten m (blocksData m) c main_arg1 (by decide) (by not_written)).trans (entry_arg1 m c)
theorem exit_arg2 (c : Dev nD) : Pipeline.afterTail₀ cfgs (blocksData m) 0 (entryVal m) [hostOps1] c main_arg2 = m ((c : Thread nD τ).loc main_arg2) :=
  (exit_of_unwritten m (blocksData m) c main_arg2 (by decide) (by not_written)).trans (entry_arg2 m c)
theorem exit_arg3 (c : Dev nD) : Pipeline.afterTail₀ cfgs (blocksData m) 0 (entryVal m) [hostOps1] c main_arg3 = m ((c : Thread nD τ).loc main_arg3) :=
  (exit_of_unwritten m (blocksData m) c main_arg3 (by decide) (by not_written)).trans (entry_arg3 m c)
theorem exit_arg4 (c : Dev nD) : Pipeline.afterTail₀ cfgs (blocksData m) 0 (entryVal m) [hostOps1] c main_arg4 = m ((c : Thread nD τ).loc main_arg4) :=
  (exit_of_unwritten m (blocksData m) c main_arg4 (by decide) (by not_written)).trans (entry_arg4 m c)
theorem exit_arg5 (c : Dev nD) : Pipeline.afterTail₀ cfgs (blocksData m) 0 (entryVal m) [hostOps1] c main_arg5 = m ((c : Thread nD τ).loc main_arg5) :=
  (exit_of_unwritten m (blocksData m) c main_arg5 (by decide) (by not_written)).trans (entry_arg5 m c)
theorem exit_arg6 (c : Dev nD) : Pipeline.afterTail₀ cfgs (blocksData m) 0 (entryVal m) [hostOps1] c main_arg6 = m ((c : Thread nD τ).loc main_arg6) :=
  (exit_of_unwritten m (blocksData m) c main_arg6 (by decide) (by not_written)).trans (entry_arg6 m c)

/-- The frame: @main runs to the end, faults nowhere, and leaves its seven argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).2 main_arg0 (Pipeline.mem_restRefs_of main_arg0 (by decide) (by decide))).trans (exit_arg0 m c),
     ((h c).2 main_arg1 (Pipeline.mem_restRefs_of main_arg1 (by decide) (by decide))).trans (exit_arg1 m c),
     ((h c).2 main_arg2 (Pipeline.mem_restRefs_of main_arg2 (by decide) (by decide))).trans (exit_arg2 m c),
     ((h c).2 main_arg3 (Pipeline.mem_restRefs_of main_arg3 (by decide) (by decide))).trans (exit_arg3 m c),
     ((h c).2 main_arg4 (Pipeline.mem_restRefs_of main_arg4 (by decide) (by decide))).trans (exit_arg4 m c),
     ((h c).2 main_arg5 (Pipeline.mem_restRefs_of main_arg5 (by decide) (by decide))).trans (exit_arg5 m c),
     ((h c).2 main_arg6 (Pipeline.mem_restRefs_of main_arg6 (by decide) (by decide))).trans (exit_arg6 m c)⟩) (run_main m ρ)

end Cert.Kernel.Heads

end
-- ==== Proof.HeadsRunIdeal.lean ====
/-
  Three 1×1 convolution heads computed by ONE pipelined matrix product. @main lays the three weight matrices side by
  side into a 384×20 matrix and pads it with twelve zero columns to 384×32, does the same with the three bias vectors
  (giving them a leading unit axis), moves the feature map to channels-last, and then runs the kernel on an 8×5 grid:
  point (bi, hi) takes rows 40·hi … 40·hi+39 of image bi as a 7040×384 matrix, multiplies it by the padded weights, adds
  the padded bias row, and stores columns 0–1, 2–15 and 16–19 of the 7040×32 product into its three output blocks. Three
  transposes after the region move the channel axis of each result back to position 1.

  This module runs that program: what each buffer holds when the region is entered, what the body leaves in each
  output block as a function of the three input blocks at the point, the per-point obligation of the body, and the
  run of @main to the state where every array the pipeline wrote holds its blocks and every other buffer holds what the
  three transposes leave. From that run the argument arrays are read back unchanged.
-/
import proofs.«168696_g47064251629653_cont_8to1c4_533_7_alg».proof.Proof.Gen.KernelIdeal.Launch
import proofs.«168696_g47064251629653_cont_8to1c4_533_7_alg».proof.Proof.Gen.KernelIdeal.Skeleton
import proofs.«168696_g47064251629653_cont_8to1c4_533_7_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Heads

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers when the region is entered -/

/-- Core `c`'s buffers after the ten host operations that precede the region (the two concatenations, the two paddings
    with their scalar zero, the bias row's unit axis, the feature map's move to channels-last), from the launch contents. -/
abbrev entryVal (c : Dev nD) : Valuation τ sig (Elt F) :=
  StableHlo.after (List.flatten [hostOps0, hostOps0_1, hostOps0_2, hostOps0_3, hostOps0_4]) (fun b => m (c, b))
/-- The same read at one TensorCore buffer. -/
abbrev entryAt (c : Dev nD) (b : Ref sig .tc) : Buf (Elt F) ((c : Thread nD τ).loc b) := entryVal m c (Proc.devRef .tc b)

/-- No host operation of @main allocates a buffer. -/
theorem fresh0 : (hostOps0 : List (HloOp τ sig (Elt F))).Forall fun op => op.fresh = ∅ := by
  simp only [List.Forall]; repeat' constructor
theorem fresh0_1 : (hostOps0_1 : List (HloOp τ sig (Elt F))).Forall fun op => op.fresh = ∅ := by
  simp only [List.Forall]; repeat' constructor
theorem fresh0_2 : (hostOps0_2 : List (HloOp τ sig (Elt F))).Forall fun op => op.fresh = ∅ := by
  simp only [List.Forall]; repeat' constructor
theorem fresh0_3 : (hostOps0_3 : List (HloOp τ sig (Elt F))).Forall fun op => op.fresh = ∅ := by
  simp only [List.Forall]; repeat' constructor
theorem fresh0_4 : (hostOps0_4 : List (HloOp τ sig (Elt F))).Forall fun op => op.fresh = ∅ := by
  simp only [List.Forall]; repeat' constructor
theorem fresh1 : (hostOps1 : List (HloOp τ sig (Elt F))).Forall fun op => op.fresh = ∅ := by
  simp only [List.Forall]; repeat' constructor

/-- @main is the ten host operations, the region, the three transposes: from the launch contents it reduces to the region
    entered at `entryAt` and continued by the transposes. -/
theorem main_around (𝒱₀ : Variants) : Pipeline.HMainK (Ix := Unit) (Name := ℕ) (U := UR sig nD τ) (Lvl := ℕ) cfgs 0 defs₀ 𝒱₀ m (main (F := F)) (entryAt m)
      (fun _ => Pipeline.chain [StableHlo.seq hostOps1]) :=
  Pipeline.hmain_around cfgs 0 defs₀ 𝒱₀ m main [hostOps0, hostOps0_1, hostOps0_2, hostOps0_3, hostOps0_4] [hostOps1]
    (by simp only [List.Forall]; exact ⟨hostOps0_sub, hostOps0_1_sub, hostOps0_2_sub, hostOps0_3_sub, hostOps0_4_sub⟩)
    (by simp only [List.Forall]; exact ⟨fresh0, fresh0_1, fresh0_2, fresh0_3, fresh0_4⟩) main_chain

/-- The transposes touch only the pipeline's arrays (each reads one result array) and buffers that bypass the region (each
    writes one), -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- allocate nothing, -/
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp fresh1) op hop
/-- and write none of the pipeline's six arrays. -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl | rfl
  all_goals intro w; fin_cases w <;> simp only [StableHlo.unary_writes, Finset.mem_singleton] <;> exact StableHlo.devRef_ne_of_ne (by decide)

/-- A buffer that none of the ten host operations before the region writes is found by the region as launched. -/
theorem entry_of_unwritten (c : Dev nD) (b : Ref sig .tc)
    (hb : ∀ op ∈ (List.flatten [hostOps0, hostOps0_1, hostOps0_2, hostOps0_3, hostOps0_4] : List (HloOp τ sig (Elt F))), Proc.devRef .tc b ∉ op.writes) :
    entryAt m c b = m ((c : Thread nD τ).loc b) :=
  StableHlo.after_of_forall_not_mem (b := Proc.devRef .tc b) _ _ hb

/-- Deciding that no operation of a stretch writes a given argument: each operation writes its one result buffer, which is
    another reference. -/
local macro "not_written" : tactic => `(tactic| (
  refine List.forall_iff_forall_mem.mp ?_
  simp only [hostOps0, hostOps0_1, hostOps0_2, hostOps0_3, hostOps0_4, hostOps1, List.flatten_cons, List.flatten_nil, List.append_nil, List.cons_append,
    List.nil_append, List.Forall, StableHlo.nullary_writes, StableHlo.unary_writes, StableHlo.binary_writes, StableHlo.nary_writes, Finset.mem_singleton]
  repeat' apply And.intro
  all_goals exact StableHlo.devRef_ne_of_ne (by decide)))

theorem entry_arg0 (c : Dev nD) : entryAt m c main_arg0 = m ((c : Thread nD τ).loc main_arg0) := entry_of_unwritten m c _ (by not_written)
theorem entry_arg1 (c : Dev nD) : entryAt m c main_arg1 = m ((c : Thread nD τ).loc main_arg1) := entry_of_unwritten m c _ (by not_written)
theorem entry_arg2 (c : Dev nD) : entryAt m c main_arg2 = m ((c : Thread nD τ).loc main_arg2) := entry_of_unwritten m c _ (by not_written)
theorem entry_arg3 (c : Dev nD) : entryAt m c main_arg3 = m ((c : Thread nD τ).loc main_arg3) := entry_of_unwritten m c _ (by not_written)
theorem entry_arg4 (c : Dev nD) : entryAt m c main_arg4 = m ((c : Thread nD τ).loc main_arg4) := entry_of_unwritten m c _ (by not_written)
theorem entry_arg5 (c : Dev nD) : entryAt m c main_arg5 = m ((c : Thread nD τ).loc main_arg5) := entry_of_unwritten m c _ (by not_written)
theorem entry_arg6 (c : Dev nD) : entryAt m c main_arg6 = m ((c : Thread nD τ).loc main_arg6) := entry_of_unwritten m c _ (by not_written)

/-- After the transposes, a buffer that is no array of the pipeline and that no transpose writes holds what the region
    found in it. -/
theorem exit_of_unwritten (dats : (p : Fin 1) → (c : Dev nD) → Dat τ (Elt F) Unit ℕ (UR sig nD τ) ℕ (cfgs p) c) (c : Dev nD) (b : Ref sig .tc)
    (harr : ∀ w, Pipeline.arrRef spec0 w ≠ b)
    (hb : ∀ op ∈ (List.flatten [hostOps1] : List (HloOp τ sig (Elt F))), Proc.devRef .tc b ∉ op.writes) :
    Pipeline.afterTail₀ cfgs dats 0 (entryVal m) [hostOps1] c b = entryAt m c b := by
  unfold Pipeline.afterTail₀
  rw [StableHlo.after_of_forall_not_mem (b := Proc.devRef .tc b) _ _ hb, Pipeline.withArrays_of_ne _ c (entryVal m c) _ b harr]

/-! ## The windows' blocks -/

/-- Window `w`'s block at grid point `t`, cut out of its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (entryAt m c (Pipeline.arrRef spec0 w))

/-- The feature-map window's staging buffer holds its block at every point (it is fetched at every point; the lemma does
    not use that), for any proof data over the entry contents whose body leaves the block in place. -/
theorem found0_of {c : Dev nD} (dat : Dat τ (Elt F) Unit ℕ (UR sig nD τ) ℕ cfg0 c) (hA : dat.A 0 = entryAt m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The weight window is fetched at the first point only and its block index never moves: its buffer holds the whole
    padded matrix at every point. -/
theorem found1_of {c : Dev nD} (dat : Dat τ (Elt F) Unit ℕ (UR sig nD τ) ℕ cfg0 c) (hA : dat.A 1 = entryAt m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- The bias window likewise. -/
theorem found2_of {c : Dev nD} (dat : Dat τ (Elt F) Unit ℕ (UR sig nD τ) ℕ cfg0 c) (hA : dat.A 2 = entryAt m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's accesses and what it leaves -/

/-- The whole-buffer rectangles through which the body loads its three inputs and stores its three outputs. -/
abbrev rX : Rect S1x40x176x384 := Rect.unit (s := S1x40x176x384) ![0, 0, 0, 0] S1x40x176x384.size inb_S1x40x176x384_S1x40x176x384_0_0_0_0
abbrev rW : Rect S384x32 := Rect.unit (s := S384x32) ![0, 0] S384x32.size inb_S384x32_S384x32_0_0
abbrev rB : Rect S1x32 := Rect.unit (s := S1x32) ![0, 0] S1x32.size inb_S1x32_S1x32_0_0
abbrev rCls : Rect S1x40x176x2 := Rect.unit (s := S1x40x176x2) ![0, 0, 0, 0] S1x40x176x2.size inb_S1x40x176x2_S1x40x176x2_0_0_0_0
abbrev rReg : Rect S1x40x176x14 := Rect.unit (s := S1x40x176x14) ![0, 0, 0, 0] S1x40x176x14.size inb_S1x40x176x14_S1x40x176x14_0_0_0_0
abbrev rDir : Rect S1x40x176x4 := Rect.unit (s := S1x40x176x4) ![0, 0, 0, 0] S1x40x176x4.size inb_S1x40x176x4_S1x40x176x4_0_0_0_0

/-- What the body leaves in the classification block, from the three input blocks: its one store, which fills the block,
    of columns 0–1 of the product plus bias. -/
def clsOut (x : Vec F S1x40x176x384 .f32) (w : Vec F S384x32 .f32) (b : Vec F S1x32 .f32) : Vec F S1x40x176x2 .f32 :=
  View.canon [⟨rCls, k0_pay2 (View.ld x rX) (View.ld w rW) (View.ld b rB)⟩]
/-- In the regression block: columns 2–15. -/
def regOut (x : Vec F S1x40x176x384 .f32) (w : Vec F S384x32 .f32) (b : Vec F S1x32 .f32) : Vec F S1x40x176x14 .f32 :=
  View.canon [⟨rReg, k0_pay3 (View.ld x rX) (View.ld w rW) (View.ld b rB)⟩]
/-- In the direction block: columns 16–19. -/
def dirOut (x : Vec F S1x40x176x384 .f32) (w : Vec F S384x32 .f32) (b : Vec F S1x32 .f32) : Vec F S1x40x176x4 .f32 :=
  View.canon [⟨rDir, k0_pay4 (View.ld x rX) (View.ld w rW) (View.ld b rB)⟩]

/-- Each output's one store is through the block's whole rectangle, so it covers the block. -/
theorem cls_cover (p : Vec F S1x40x176x2 .f32) (y : S1x40x176x2.Idx) :
    ∃ pc ∈ ([⟨rCls, p⟩] : List (View.Piece (Elt F) S1x40x176x2 .f32)), y ∈ pc.1.set :=
  View.cover_of_tiled [⟨rCls, p⟩] S1x40x176x2.size (by rfl) y
theorem reg_cover (p : Vec F S1x40x176x14 .f32) (y : S1x40x176x14.Idx) :
    ∃ pc ∈ ([⟨rReg, p⟩] : List (View.Piece (Elt F) S1x40x176x14 .f32)), y ∈ pc.1.set :=
  View.cover_of_tiled [⟨rReg, p⟩] S1x40x176x14.size (by rfl) y
theorem dir_cover (p : Vec F S1x40x176x4 .f32) (y : S1x40x176x4.Idx) :
    ∃ pc ∈ ([⟨rDir, p⟩] : List (View.Piece (Elt F) S1x40x176x4 .f32)), y ∈ pc.1.set :=
  View.cover_of_tiled [⟨rDir, p⟩] S1x40x176x4.size (by rfl) y

/-! ## The body's triple -/

set_option maxHeartbeats 1000000 in
/-- The body on whole staging buffers — the three inputs' at read contents `x`, `w`, `b`, the three outputs' at anything —
    runs to the continuation with the inputs' as they were and each output's at its store's payload. (The body also loads
    each output buffer before storing into it; nothing it stores depends on those loads.) -/
theorem head_body (c : Dev nD) (E : Set ℕ) (i : grid0.Coords)
    (arg2 : Memref sig .tc .vmem S1x40x176x384 .f32) (harg2 : arg2.IsWhole) (arg3 : Memref sig .tc .vmem S384x32 .f32) (harg3 : arg3.IsWhole)
    (arg4 : Memref sig .tc .vmem S1x32 .f32) (harg4 : arg4.IsWhole) (arg5 : Memref sig .tc .vmem S1x40x176x2 .f32) (harg5 : arg5.IsWhole)
    (arg6 : Memref sig .tc .vmem S1x40x176x14 .f32) (harg6 : arg6.IsWhole) (arg7 : Memref sig .tc .vmem S1x40x176x4 .f32) (harg7 : arg7.IsWhole)
    (x : Vec F S1x40x176x384 .f32) (w : Vec F S384x32 .f32) (b : Vec F S1x32 .f32) (K : PUnit → sProp 𝕄) :
    iprop(owns (c : Thread nD τ) arg2 fullShare x ∗ owns (c : Thread nD τ) arg3 fullShare w ∗ owns (c : Thread nD τ) arg4 fullShare b
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg2 fullShare x ∗ owns (c : Thread nD τ) arg3 fullShare w ∗ owns (c : Thread nD τ) arg4 fullShare b
            ∗ owns (c : Thread nD τ) arg5 fullShare (clsOut x w b) ∗ owns (c : Thread nD τ) arg6 fullShare (regOut x w b)
            ∗ owns (c : Thread nD τ) arg7 fullShare (dirOut x w b)) -∗ K ⟨⟩))
      ⊢ wp frame (wpE (defs₀ (F := F)) Variants.none c none) E
          (cc0__head_kernel i arg2 harg2 arg3 harg3 arg4 harg4 arg5 harg5 arg6 harg6 arg7 harg7) K := by
  simp only [cc0__head_kernel_eq_skeleton]; unfold cc0__head_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cls_cover _)
  isplitl [H4]
  · iexists _; isplitr
    swap; · iexact H4
    ipureintro
    exact View.read_writes_eq_canon _ _ _ (reg_cover _)
  iexists _; isplitr
  swap; · iexact H5
  ipureintro
  exact View.read_writes_eq_canon _ _ _ (dir_cover _)

/-! ## The pipeline's proof data -/

/-- The proof data of the one pipeline on core `c`: each array as the region finds it; after the body at point `t` each
    input's buffer still at its block and each output's at the body's store for the three input blocks of the point;
    the invariant is the scoped rest and the generator register, which the body does not touch; nothing is owed and every
    share is whole. -/
def blocksData (_ : Fin 1) (c : Dev nD) : Dat τ (Elt F) Unit ℕ (UR sig nD τ) ℕ cfg0 c where
  A w := entryAt m c (Pipeline.arrRef spec0 w)
  after w t := match w with
    | ⟨0, _⟩ => iblk m c 0 t
    | ⟨1, _⟩ => iblk m c 1 t
    | ⟨2, _⟩ => iblk m c 2 t
    | ⟨3, _⟩ => clsOut (iblk m c 0 t) (iblk m c 1 t) (iblk m c 2 t)
    | ⟨4, _⟩ => regOut (iblk m c 0 t) (iblk m c 1 t) (iblk m c 2 t)
    | ⟨5, _⟩ => dirOut (iblk m c 0 t) (iblk m c 1 t) (iblk m c 2 t)
  Φ _ := Pipeline.ΦA spec0 c
  q _ := fullShare
  owed _ := 0

/-- The proof data's arrays are the entry contents, by projecting the definition. -/
theorem arrays_eq (c : Dev nD) (w : Fin cfg0.W) : (blocksData m 0 c).A w = entryAt m c (Pipeline.arrRef spec0 w) := by
  dsimp only [blocksData]

/-- What the body leaves, window by window. -/
theorem after_x (c : Dev nD) (t : Fin cfg0.N) : (blocksData m 0 c).after 0 t = iblk m c 0 t := by dsimp only [blocksData]
theorem after_w (c : Dev nD) (t : Fin cfg0.N) : (blocksData m 0 c).after 1 t = iblk m c 1 t := by dsimp only [blocksData]
theorem after_b (c : Dev nD) (t : Fin cfg0.N) : (blocksData m 0 c).after 2 t = iblk m c 2 t := by dsimp only [blocksData]
theorem after_cls (c : Dev nD) (t : Fin cfg0.N) :
    (blocksData m 0 c).after 3 t = clsOut (iblk m c 0 t) (iblk m c 1 t) (iblk m c 2 t) := by dsimp only [blocksData]
theorem after_reg (c : Dev nD) (t : Fin cfg0.N) :
    (blocksData m 0 c).after 4 t = regOut (iblk m c 0 t) (iblk m c 1 t) (iblk m c 2 t) := by dsimp only [blocksData]
theorem after_dir (c : Dev nD) (t : Fin cfg0.N) :
    (blocksData m 0 c).after 5 t = dirOut (iblk m c 0 t) (iblk m c 1 t) (iblk m c 2 t) := by dsimp only [blocksData]

/-- Each input's current staging buffer holds its block at every point. -/
theorem found_x (c : Dev nD) (t : Fin cfg0.N) (d) : (blocksData m 0 c).before 0 t d = iblk m c 0 t :=
  found0_of m (blocksData m 0 c) (arrays_eq m c 0) (after_x m c) t d
theorem found_w (c : Dev nD) (t : Fin cfg0.N) (d) : (blocksData m 0 c).before 1 t d = iblk m c 1 t :=
  found1_of m (blocksData m 0 c) (arrays_eq m c 1) (after_w m c) t d
theorem found_b (c : Dev nD) (t : Fin cfg0.N) (d) : (blocksData m 0 c).before 2 t d = iblk m c 2 t :=
  found2_of m (blocksData m 0 c) (arrays_eq m c 2) (after_b m c) t d

/-! ## The body obligation at a generic point -/

/-- What the body is called with at point `t`, the six windows one by one, -/
def pointPre (c : Dev nD) (t : Fin cfg0.N) : sProp 𝕄 :=
  iprop((blocksData m 0 c).Φ t.castSucc ∗ (blocksData m 0 c).owesAt () t.castSucc
    ∗ (∃ d, owns (c : Thread nD τ) (st0_0 t) fullShare ((blocksData m 0 c).before 0 t d))
    ∗ (∃ d, owns (c : Thread nD τ) (st0_1 t) fullShare ((blocksData m 0 c).before 1 t d))
    ∗ (∃ d, owns (c : Thread nD τ) (st0_2 t) fullShare ((blocksData m 0 c).before 2 t d))
    ∗ (∃ d, owns (c : Thread nD τ) (st0_3 t) fullShare ((blocksData m 0 c).before 3 t d))
    ∗ (∃ d, owns (c : Thread nD τ) (st0_4 t) fullShare ((blocksData m 0 c).before 4 t d))
    ∗ (∃ d, owns (c : Thread nD τ) (st0_5 t) fullShare ((blocksData m 0 c).before 5 t d)))

/-- and what it returns. -/
def pointPost (c : Dev nD) (t : Fin cfg0.N) : sProp 𝕄 :=
  iprop((blocksData m 0 c).Φ t.succ ∗ (blocksData m 0 c).owesAt () t.succ
    ∗ owns (c : Thread nD τ) (st0_0 t) fullShare ((blocksData m 0 c).after 0 t)
    ∗ owns (c : Thread nD τ) (st0_1 t) fullShare ((blocksData m 0 c).after 1 t)
    ∗ owns (c : Thread nD τ) (st0_2 t) fullShare ((blocksData m 0 c).after 2 t)
    ∗ owns (c : Thread nD τ) (st0_3 t) fullShare ((blocksData m 0 c).after 3 t)
    ∗ owns (c : Thread nD τ) (st0_4 t) fullShare ((blocksData m 0 c).after 4 t)
    ∗ owns (c : Thread nD τ) (st0_5 t) fullShare ((blocksData m 0 c).after 5 t))

/-- The body at any point: the three inputs' buffers hold their blocks, so `head_body` applies at those blocks; the
    invariant and what the core owes pass through unread. -/
theorem point_body (c : Dev nD) (t : Fin cfg0.N) :
    pointPre m c t ⊢ wp frame (wpE (defs₀ (F := F)) Variants.none c none) Set.univ (bodyAt0 t) (fun _ => pointPost m c t) := by
  unfold pointPre pointPost bodyAt0
  simp only [found_x, found_w, found_b]
  rw [show (blocksData m 0 c).Φ t.succ = (blocksData m 0 c).Φ t.castSucc from rfl,
    show (blocksData m 0 c).owesAt () t.succ = (blocksData m 0 c).owesAt () t.castSucc from rfl,
    after_x, after_w, after_b, after_cls, after_reg, after_dir]
  iintro ⟨HΦ, Ho, ⟨%d0, H0⟩, ⟨%d1, H1⟩, ⟨%d2, H2⟩, ⟨%d3, H3⟩, ⟨%d4, H4⟩, ⟨%d5, H5⟩⟩
  iapply (head_body c Set.univ (grid0.coords t) _ _ _ _ _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline library's body obligation, at every point. -/
theorem body_ok (c : Dev nD) : BodyObligation (blocksData (F := F) m 0 c) (defs₀ (F := F)) Variants.none () Set.univ := fun t => by
  rw [bigSep_W0, bigSep_W0]
  exact point_body m c t

/-! ## The run of @main -/

set_option backward.isDefEq.respectTransparency.types false in
/-- From any memory with zero counters, every weakly fair execution of @main terminates, faulting nowhere, in a state where
    each of the pipeline's six arrays holds what the proof data compute for it after the last point — an input its entry
    contents, an output those overwritten block by block — and every other unscoped buffer what the three transposes leave
    from there. -/
theorem run_main : θ_run defs (onTc (τ := τ) (main (F := F))) (s₀ m ρ)
    (Pipeline.FramePost cfgs (blocksData m) 0 (Pipeline.afterTail₀ cfgs (blocksData m) 0 (entryVal m) [hostOps1])) :=
  Pipeline.θ_run_frame_around cfgs (blocksData m) (0 : Fin 1) launch0 defs₀ Variants.none m ρ main
    (hbody := fun c => (body_ok m c).loose) (hshare := fun c => (blocksData m 0 c).share_full fun _ => rfl)
    (howed := fun _ _ => rfl) (V₀ := entryVal m) (opss := [hostOps1]) (hsub := tail_sub) (hfresh := tail_fresh) (hkeep := tail_keeps)
    (hmain := main_around m Variants.none) (hA := arrays_eq m) (hΦ := fun _ _ => rfl)

/-- Each argument array ends as launched: no window stages it, no transpose writes it, and no host operation before the
    region wrote it. -/
theorem exit_arg0 (c : Dev nD) : Pipeline.afterTail₀ cfgs (blocksData m) 0 (entryVal m) [hostOps1] c main_arg0 = m ((c : Thread nD τ).loc main_arg0) :=
  (exit_of_unwritten m (blocksData m) c main_arg0 (by decide) (by not_written)).trans (entry_arg0 m c)
theorem exit_arg1 (c : Dev nD) : Pipeline.afterTail₀ cfgs (blocksData m) 0 (entryVal m) [hostOps1] c main_arg1 = m ((c : Thread nD τ).loc main_arg1) :=
  (exit_of_unwritten m (blocksData m) c main_arg1 (by decide) (by not_written)).trans (entry_arg1 m c)
theorem exit_arg2 (c : Dev nD) : Pipeline.afterTail₀ cfgs (blocksData m) 0 (entryVal m) [hostOps1] c main_arg2 = m ((c : Thread nD τ).loc main_arg2) :=
  (exit_of_unwritten m (blocksData m) c main_arg2 (by decide) (by not_written)).trans (entry_arg2 m c)
theorem exit_arg3 (c : Dev nD) : Pipeline.afterTail₀ cfgs (blocksData m) 0 (entryVal m) [hostOps1] c main_arg3 = m ((c : Thread nD τ).loc main_arg3) :=
  (exit_of_unwritten m (blocksData m) c main_arg3 (by decide) (by not_written)).trans (entry_arg3 m c)
theorem exit_arg4 (c : Dev nD) : Pipeline.afterTail₀ cfgs (blocksData m) 0 (entryVal m) [hostOps1] c main_arg4 = m ((c : Thread nD τ).loc main_arg4) :=
  (exit_of_unwritten m (blocksData m) c main_arg4 (by decide) (by not_written)).trans (entry_arg4 m c)
theorem exit_arg5 (c : Dev nD) : Pipeline.afterTail₀ cfgs (blocksData m) 0 (entryVal m) [hostOps1] c main_arg5 = m ((c : Thread nD τ).loc main_arg5) :=
  (exit_of_unwritten m (blocksData m) c main_arg5 (by decide) (by not_written)).trans (entry_arg5 m c)
theorem exit_arg6 (c : Dev nD) : Pipeline.afterTail₀ cfgs (blocksData m) 0 (entryVal m) [hostOps1] c main_arg6 = m ((c : Thread nD τ).loc main_arg6) :=
  (exit_of_unwritten m (blocksData m) c main_arg6 (by decide) (by not_written)).trans (entry_arg6 m c)

/-- The frame: @main runs to the end, faults nowhere, and leaves its seven argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).2 main_arg0 (Pipeline.mem_restRefs_of main_arg0 (by decide) (by decide))).trans (exit_arg0 m c),
     ((h c).2 main_arg1 (Pipeline.mem_restRefs_of main_arg1 (by decide) (by decide))).trans (exit_arg1 m c),
     ((h c).2 main_arg2 (Pipeline.mem_restRefs_of main_arg2 (by decide) (by decide))).trans (exit_arg2 m c),
     ((h c).2 main_arg3 (Pipeline.mem_restRefs_of main_arg3 (by decide) (by decide))).trans (exit_arg3 m c),
     ((h c).2 main_arg4 (Pipeline.mem_restRefs_of main_arg4 (by decide) (by decide))).trans (exit_arg4 m c),
     ((h c).2 main_arg5 (Pipeline.mem_restRefs_of main_arg5 (by decide) (by decide))).trans (exit_arg5 m c),
     ((h c).2 main_arg6 (Pipeline.mem_restRefs_of main_arg6 (by decide) (by decide))).trans (exit_arg6 m c)⟩) (run_main m ρ)

end Cert.KernelIdeal.Heads

end
-- ==== Proof.LibPlainDot.lean ====
/-
  A plain matrix product [a, k] · [k, b] → [a, b]: no batch axis, one contracted axis of extent k (axis 1 of the left
  operand, axis 0 of the right), the rows from the left operand, the columns from the right.

  The dimension numbers place the coordinates: the left operand is read at (row of the result, contraction
  position), the right at (contraction position, column of the result). So at the ideal values, where both the
  kernel's product into a zero accumulator and the host's product are the exact sum over the contraction index,
  the entry (p, q) of either is  ∑ κ < k, l (p, κ) · r (κ, q).
-/
import Idealize.ShloMosaic.Lib.ValueIdx
import Idealize.ShloMosaic.PureOps.Ideal.Laws

namespace Cert.PlainDot

open Idealize.ShloMosaic Idealize.ShloMosaic.ValueIdx

variable {a k b : ℕ} (d : DotDims ⟨2, ![a, k]⟩ ⟨2, ![k, b]⟩ ⟨2, ![a, b]⟩)

/-- The dimension numbers of a plain matrix product. -/
structure Plain : Prop where
  lhsBatch : d.lhsBatch = []
  lhsNon : d.lhsNonContracting = [0]
  lhsContr : d.lhsContracting = [1]
  rhsBatch : d.rhsBatch = []
  rhsNon : d.rhsNonContracting = [1]
  rhsContr : d.rhsContracting = [0]

variable {d}

/-- The left operand's row is the result's row. -/
theorem lhs_row (h : Plain d) (j : (⟨2, ![a, b]⟩ : Shape).Idx) (q : d.contr.Idx) : (d.lhsIdx j q 0).val = (j 0).val := by
  unfold DotDims.lhsIdx
  rw [dif_neg (by rw [h.lhsBatch]; exact List.not_mem_nil), dif_pos (by rw [h.lhsNon]; exact List.mem_singleton.mpr rfl)]
  simp only [Fin.val_cast]
  have key : ∀ (p : Nat) (hp : p < 2), p = 0 → (j ⟨p, hp⟩).val = (j 0).val := fun p hp e => by subst e; rfl
  exact key _ _ (by simp [h.lhsBatch, h.lhsNon])

/-- The right operand's column is the result's column. -/
theorem rhs_col (h : Plain d) (j : (⟨2, ![a, b]⟩ : Shape).Idx) (q : d.contr.Idx) : (d.rhsIdx j q 1).val = (j 1).val := by
  unfold DotDims.rhsIdx
  rw [dif_neg (by rw [h.rhsBatch]; exact List.not_mem_nil), dif_pos (by rw [h.rhsNon]; exact List.mem_singleton.mpr rfl)]
  simp only [Fin.val_cast]
  have key : ∀ (p : Nat) (hp : p < 2), p = 1 → (j ⟨p, hp⟩).val = (j 1).val := fun p hp e => by subst e; rfl
  exact key _ _ (by simp [h.lhsBatch, h.lhsNon, h.rhsNon])

/-- The contraction over the record's own index type, re-indexed to κ < k. -/
theorem sum_contr (h : Plain d) (hr : d.contr.rank = 1) (hs : d.contr.size ⟨0, by omega⟩ = k)
    (l : (⟨2, ![a, k]⟩ : Shape).Idx → EReal) (r : (⟨2, ![k, b]⟩ : Shape).Idx → EReal) (p : Fin a) (q : Fin b) :
    ∑ κ : d.contr.Idx, l (d.lhsIdx (ix2 p q) κ) * r (d.rhsIdx (ix2 p q) κ) = ∑ κ : Fin k, l (ix2 p κ) * r (ix2 κ q) := by
  rw [← Equiv.sum_comp (contrEquiv1 d k hr hs).symm]
  refine Finset.sum_congr rfl fun κ _ => ?_
  have hk := contrEquiv1_symm_val d k hr hs κ
  have el : d.lhsIdx (ix2 p q) ((contrEquiv1 d k hr hs).symm κ) = ix2 p κ := funext fun x => Fin.ext (by
    match x with
    | ⟨0, _⟩ => exact lhs_row h _ _
    | ⟨1, _⟩ => exact (d.lhsIdx_val_of_single h.lhsContr _ _).trans hk)
  have er : d.rhsIdx (ix2 p q) ((contrEquiv1 d k hr hs).symm κ) = ix2 κ q := funext fun x => Fin.ext (by
    match x with
    | ⟨0, _⟩ => exact (d.rhsIdx_val_of_single h.rhsContr _ _).trans hk
    | ⟨1, _⟩ => exact rhs_col h _ _)
  rw [el, er]

/-- The kernel's matrix product into a zero accumulator, at an entry. -/
theorem matmul_zero_apply {φ₁ φ₂ : FTy} (h : Plain d) (hr : d.contr.rank = 1) (hs : d.contr.size ⟨0, by omega⟩ = k)
    (prec : Option ContractPrecision) (l : FVec Ideal ⟨2, ![a, k]⟩ φ₁) (r : FVec Ideal ⟨2, ![k, b]⟩ φ₂) (p : Fin a) (q : Fin b) :
    matmul d prec l r (constant ⟨2, ![a, b]⟩ .f32 0x00000000#32) (ix2 p q) = ∑ κ : Fin k, l (ix2 p κ) * r (ix2 κ q) :=
  (Ideal.matmul_constant_zero_apply d prec l r (ix2 p q)).trans (sum_contr h hr hs l r p q)

/-- The host's matrix product, at an entry. -/
theorem dotGeneral_apply {φ₁ φ₂ : FTy} (h : Plain d) (hr : d.contr.rank = 1) (hs : d.contr.size ⟨0, by omega⟩ = k)
    (prec : Option ContractPrecision) (l : FVec Ideal ⟨2, ![a, k]⟩ φ₁) (r : FVec Ideal ⟨2, ![k, b]⟩ φ₂) (p : Fin a) (q : Fin b) :
    Host.dotGeneral d prec l r (ix2 p q) = ∑ κ : Fin k, l (ix2 p κ) * r (ix2 κ q) := by
  simp only [Host.dotGeneral]
  exact (Ideal.dotGeneral_apply d prec _ l r (ix2 p q)).trans (sum_contr h hr hs l r p q)

end Cert.PlainDot
-- ==== Proof.HeadPayload.lean ====
/-
  The body's arithmetic, entry by entry, at the ideal values.

  The body views its 1×40×176×384 feature block as a 7040×384 matrix (row n = 176·r + q is pixel (r, q)), multiplies
  it by the 384×32 weight block into a zero accumulator and adds the 1×32 bias row to every row. At the ideal values
  entry (n, j) of that 7040×32 matrix is  ∑ κ < 384, x (0, r, q, κ) · w (κ, j) + b (0, j).  Each of the three stores
  takes a band of columns of it — columns 0–1, 2–15, 16–19 — and views the band's rows as the 40×176 pixels again:
  entry (0, r, q, o) of the stored block is entry (176·r + q, o + first column of the band) of the matrix.
-/
import proofs.«168696_g47064251629653_cont_8to1c4_533_7_alg».proof.Proof.Gen.KernelIdeal.Skeleton
import proofs.«168696_g47064251629653_cont_8to1c4_533_7_alg».proof.Proof.LibPlainDot
import Idealize.ShloMosaic.Lib.Pipeline.Value
import Idealize.ShloMosaic.Lib.ValueIdx
import Idealize.ShloMosaic.PureOps.Ideal.Laws

noncomputable section

namespace Cert.KernelIdeal.HeadMath

open Cert.KernelIdeal Cert.KernelIdeal.Gen Idealize.ShloMosaic Idealize.ShloMosaic.ValueIdx

/-- The body's product is a plain matrix product: rows of the left operand against columns of the right. -/
theorem dot_plain : Cert.PlainDot.Plain dot_S7040x384_S384x32_S7040x32_1_0_0_1_n_n := ⟨rfl, rfl, rfl, rfl, rfl, rfl⟩

/-- Entry (176·r + q, j) of the product plus bias: pixel (r, q)'s channels against column j of the weights, plus entry j of
    the bias row. -/
theorem prod_bias_apply (x : Vec Ideal S1x40x176x384 .f32) (w : Vec Ideal S384x32 .f32) (b : Vec Ideal S1x32 .f32)
    (r : Fin 40) (q : Fin 176) (j : Fin 32) (n : Fin 7040) (hn : n.val = r.val * 176 + q.val) :
    k0_pay1 (F := Ideal) x w b (ix2 n j) = (∑ κ : Fin 384, x (ix4 0 r q κ) * w (ix2 κ j)) + b (ix2 0 j) := by
  unfold k0_pay1
  rw [addf_apply, Cert.PlainDot.matmul_zero_apply dot_plain rfl rfl]
  have hx : ∀ κ : Fin 384, shapeCast S7040x384 (shapeCast S40x176x384 x shapeCasts_S1x40x176x384_S40x176x384)
      shapeCasts_S40x176x384_S7040x384 (ix2 n κ) = x (ix4 0 r q κ) := fun κ => by
    refine (shapeCast_apply _ _ (ix2 n κ) (ix3 r q κ) ?_).trans (shapeCast_apply _ _ (ix3 r q κ) (ix4 0 r q κ) ?_)
    · rw [Shape.rowMajor_val_three, Shape.rowMajor_val_two]
      show (r.val * 176 + q.val) * 384 + κ.val = n.val * 384 + κ.val
      rw [hn]
    · rw [Shape.rowMajor_val_four, Shape.rowMajor_val_three]
      show ((0 * 40 + r.val) * 176 + q.val) * 384 + κ.val = (r.val * 176 + q.val) * 384 + κ.val
      omega
  have hb : broadcastTo S7040x32 (shapeCast S1x32 b shapeCasts_S1x32_S1x32) broadcasts_S1x32_S7040x32 (ix2 n j) = b (ix2 0 j) := by
    rw [shapeCast_self]
    refine broadcastTo_apply _ _ (ix2 n j) (ix2 0 j) fun a => ?_
    match a with
    | ⟨0, _⟩ => rfl
    | ⟨1, _⟩ => rfl
  rw [hb, shapeCast_self]
  simp only [hx]

/-- The classification store: entry (0, r, q, o) of its block is entry (176·r + q, o) of the product plus bias. -/
theorem cls_pay_apply (x : Vec Ideal S1x40x176x384 .f32) (w : Vec Ideal S384x32 .f32) (b : Vec Ideal S1x32 .f32)
    (r : Fin 40) (q : Fin 176) (o : Fin 2) (j : Fin 32) (hj : j.val = 0 + o.val) :
    k0_pay2 (F := Ideal) x w b (ix4 0 r q o) = (∑ κ : Fin 384, x (ix4 0 r q κ) * w (ix2 κ j)) + b (ix2 0 j) := by
  unfold k0_pay2
  refine (shapeCast_apply _ _ (ix4 0 r q o) (ix3 r q o) ?_).trans ?_
  · rw [Shape.rowMajor_val_four, Shape.rowMajor_val_three]
    show (r.val * 176 + q.val) * 2 + o.val = ((0 * 40 + r.val) * 176 + q.val) * 2 + o.val
    omega
  refine (shapeCast_apply _ _ (ix3 r q o) (ix2 (⟨r.val * 176 + q.val, by omega⟩ : Fin 7040) o) ?_).trans ?_
  · rw [Shape.rowMajor_val_three, Shape.rowMajor_val_two]
    rfl
  refine (extractStridedSlice_apply _ _ _ (ix2 (⟨r.val * 176 + q.val, by omega⟩ : Fin 7040) o) (ix2 (⟨r.val * 176 + q.val, by omega⟩ : Fin 7040) j) fun a => ?_).trans ?_
  · match a with
    | ⟨0, _⟩ => show r.val * 176 + q.val = 0 + (r.val * 176 + q.val); omega
    | ⟨1, _⟩ => exact hj
  exact prod_bias_apply x w b r q j _ rfl

/-- The regression store: columns 2–15. -/
theorem reg_pay_apply (x : Vec Ideal S1x40x176x384 .f32) (w : Vec Ideal S384x32 .f32) (b : Vec Ideal S1x32 .f32)
    (r : Fin 40) (q : Fin 176) (o : Fin 14) (j : Fin 32) (hj : j.val = 2 + o.val) :
    k0_pay3 (F := Ideal) x w b (ix4 0 r q o) = (∑ κ : Fin 384, x (ix4 0 r q κ) * w (ix2 κ j)) + b (ix2 0 j) := by
  unfold k0_pay3
  refine (shapeCast_apply _ _ (ix4 0 r q o) (ix3 r q o) ?_).trans ?_
  · rw [Shape.rowMajor_val_four, Shape.rowMajor_val_three]
    show (r.val * 176 + q.val) * 14 + o.val = ((0 * 40 + r.val) * 176 + q.val) * 14 + o.val
    omega
  refine (shapeCast_apply _ _ (ix3 r q o) (ix2 (⟨r.val * 176 + q.val, by omega⟩ : Fin 7040) o) ?_).trans ?_
  · rw [Shape.rowMajor_val_three, Shape.rowMajor_val_two]
    rfl
  refine (extractStridedSlice_apply _ _ _ (ix2 (⟨r.val * 176 + q.val, by omega⟩ : Fin 7040) o) (ix2 (⟨r.val * 176 + q.val, by omega⟩ : Fin 7040) j) fun a => ?_).trans ?_
  · match a with
    | ⟨0, _⟩ => show r.val * 176 + q.val = 0 + (r.val * 176 + q.val); omega
    | ⟨1, _⟩ => exact hj
  exact prod_bias_apply x w b r q j _ rfl

/-- The direction store: columns 16–19. -/
theorem dir_pay_apply (x : Vec Ideal S1x40x176x384 .f32) (w : Vec Ideal S384x32 .f32) (b : Vec Ideal S1x32 .f32)
    (r : Fin 40) (q : Fin 176) (o : Fin 4) (j : Fin 32) (hj : j.val = 16 + o.val) :
    k0_pay4 (F := Ideal) x w b (ix4 0 r q o) = (∑ κ : Fin 384, x (ix4 0 r q κ) * w (ix2 κ j)) + b (ix2 0 j) := by
  unfold k0_pay4
  refine (shapeCast_apply _ _ (ix4 0 r q o) (ix3 r q o) ?_).trans ?_
  · rw [Shape.rowMajor_val_four, Shape.rowMajor_val_three]
    show (r.val * 176 + q.val) * 4 + o.val = ((0 * 40 + r.val) * 176 + q.val) * 4 + o.val
    omega
  refine (shapeCast_apply _ _ (ix3 r q o) (ix2 (⟨r.val * 176 + q.val, by omega⟩ : Fin 7040) o) ?_).trans ?_
  · rw [Shape.rowMajor_val_three, Shape.rowMajor_val_two]
    rfl
  refine (extractStridedSlice_apply _ _ _ (ix2 (⟨r.val * 176 + q.val, by omega⟩ : Fin 7040) o) (ix2 (⟨r.val * 176 + q.val, by omega⟩ : Fin 7040) j) fun a => ?_).trans ?_
  · match a with
    | ⟨0, _⟩ => show r.val * 176 + q.val = 0 + (r.val * 176 + q.val); omega
    | ⟨1, _⟩ => exact hj
  exact prod_bias_apply x w b r q j _ rfl

end Cert.KernelIdeal.HeadMath

end
-- ==== Proof.HeadEntry.lean ====
/-
  What the region finds in its three input arrays, as terms of the launch contents: the feature map moved to
  channels-last; the three weight matrices side by side, padded on the right with twelve columns of the scalar the
  program converts from the integer zero; the three bias vectors end to end, padded likewise, with a leading unit axis.
  Read at a column below 20, the padded weights are the head's own weights and the padded bias the head's own bias:
  columns 0–1 the classification head, 2–15 the regression head, 16–19 the direction head.
-/
import proofs.«168696_g47064251629653_cont_8to1c4_533_7_alg».proof.Proof.HeadsRunIdeal
import Idealize.ShloMosaic.Lib.StableHlo.Run
import Idealize.ShloMosaic.Lib.Pipeline.Value
import Idealize.ShloMosaic.Lib.ValueIdx
import Idealize.ShloMosaic.Lib.KernelVsHost

noncomputable section

namespace Cert.KernelIdeal.Heads

open Cert.KernelIdeal Cert.KernelIdeal.Gen
open Idealize.ShloMosaic Idealize.ShloMosaic.TcCoe Idealize.ShloMosaic.ValueIdx Idealize.SL.Sem Idealize.ShloMosaic.StableHlo

variable {F : FTy → Type} [FloatOps F]
variable (m : (ℓ : Loc nD τ sig) → Buf (Elt F) ℓ)

/-- The feature map as the region finds it: channels last. -/
theorem entry_feat (c : Dev nD) : (entryAt m c main_v5 : S8x200x176x384.Idx → Elt F .f32)
    = transpose S8x200x176x384 [0, 2, 3, 1] (m ((c : Thread nD τ).loc main_arg0)) transposes_S8x384x200x176_S8x200x176x384_0_2_3_1 := by
  dsimp only [entryAt, entryVal]
  simp only [hostOps0, hostOps0_1, hostOps0_2, hostOps0_3, hostOps0_4, List.flatten_cons, List.flatten_nil, List.append_nil, List.cons_append, List.nil_append]
  after_results

/-- The weights as the region finds them. -/
theorem entry_weights (c : Dev nD) : (entryAt m c main_v1 : S384x32.Idx → Elt F .f32)
    = pad S384x32 ![0, 0] ![0, 12] ![0, 0]
        (concatenate S384x20 1 [⟨S384x2, m ((c : Thread nD τ).loc main_arg1)⟩, ⟨S384x14, m ((c : Thread nD τ).loc main_arg3)⟩, ⟨S384x4, m ((c : Thread nD τ).loc main_arg5)⟩] concatenates_S384x2_S384x14_S384x4_S384x20_d1)
        (sitofp (F := F) .f32 (constantI S_ 32 0#32)) pads_S384x20_S384x32_000_0120 h_S_ := by
  dsimp only [entryAt, entryVal]
  simp only [hostOps0, hostOps0_1, hostOps0_2, hostOps0_3, hostOps0_4, List.flatten_cons, List.flatten_nil, List.append_nil, List.cons_append, List.nil_append]
  after_results
  rfl

/-- The bias row as the region finds it. -/
theorem entry_bias (c : Dev nD) : (entryAt m c main_v4 : S1x32.Idx → Elt F .f32)
    = broadcastInDim S1x32 ![1] bcast_S32_S1x32_1 (pad S32 ![0] ![12] ![0]
        (concatenate S20 0 [⟨S2, m ((c : Thread nD τ).loc main_arg2)⟩, ⟨S14, m ((c : Thread nD τ).loc main_arg4)⟩, ⟨S4, m ((c : Thread nD τ).loc main_arg6)⟩] concatenates_S2_S14_S4_S20_d0)
        (sitofp (F := F) .f32 (constantI S_ 32 0#32)) pads_S20_S32_0120 h_S_) := by
  dsimp only [entryAt, entryVal]
  simp only [hostOps0, hostOps0_1, hostOps0_2, hostOps0_3, hostOps0_4, List.flatten_cons, List.flatten_nil, List.append_nil, List.cons_append, List.nil_append]
  after_results
  rfl

/-! ## The padded weights and bias at a column below 20 -/

/-- Column `j` of the padded weights, for `j` in the classification band, is that column of the classification weights. -/
theorem weights_cls (c : Dev nD) (κ : Fin 384) (o : Fin 2) (j : Fin 32) (hj : j.val = 0 + o.val) :
    (entryAt m c main_v1 : S384x32.Idx → Elt F .f32) (ix2 κ j) = (m ((c : Thread nD τ).loc main_arg1) : S384x2.Idx → Elt F .f32) (ix2 κ o) := by
  rw [entry_weights]
  refine (pad_apply_of_inside _ _ _ _ _ _ _ (ix2 κ j) (ix2 κ (⟨j.val, by omega⟩ : Fin 20)) fun a => ?_).trans ?_
  · match a with
    | ⟨0, _⟩ => show κ.val = 0 + κ.val * (0 + 1); omega
    | ⟨1, _⟩ => show j.val = 0 + j.val * (0 + 1); omega
  refine concatenate_apply_piece 1
    [⟨S384x2, m ((c : Thread nD τ).loc main_arg1)⟩, ⟨S384x14, m ((c : Thread nD τ).loc main_arg3)⟩, ⟨S384x4, m ((c : Thread nD τ).loc main_arg5)⟩]
    concatenates_S384x2_S384x14_S384x4_S384x20_d1 (ix2 κ (⟨j.val, by omega⟩ : Fin 20)) 0 (Nat.zero_lt_succ 2) S384x2
    (m ((c : Thread nD τ).loc main_arg1)) rfl rfl 0 rfl (ix2 κ o) (fun b hb => ?_) ?_
  · match b with
    | ⟨0, _⟩ => rfl
    | ⟨1, _⟩ => exact absurd rfl hb
  · show 0 + o.val = j.val; omega

/-- In the regression band, column `j - 2` of the regression weights. -/
theorem weights_reg (c : Dev nD) (κ : Fin 384) (o : Fin 14) (j : Fin 32) (hj : j.val = 2 + o.val) :
    (entryAt m c main_v1 : S384x32.Idx → Elt F .f32) (ix2 κ j) = (m ((c : Thread nD τ).loc main_arg3) : S384x14.Idx → Elt F .f32) (ix2 κ o) := by
  rw [entry_weights]
  refine (pad_apply_of_inside _ _ _ _ _ _ _ (ix2 κ j) (ix2 κ (⟨j.val, by omega⟩ : Fin 20)) fun a => ?_).trans ?_
  · match a with
    | ⟨0, _⟩ => show κ.val = 0 + κ.val * (0 + 1); omega
    | ⟨1, _⟩ => show j.val = 0 + j.val * (0 + 1); omega
  refine concatenate_apply_piece 1
    [⟨S384x2, m ((c : Thread nD τ).loc main_arg1)⟩, ⟨S384x14, m ((c : Thread nD τ).loc main_arg3)⟩, ⟨S384x4, m ((c : Thread nD τ).loc main_arg5)⟩]
    concatenates_S384x2_S384x14_S384x4_S384x20_d1 (ix2 κ (⟨j.val, by omega⟩ : Fin 20)) 1 (Nat.succ_lt_succ (Nat.zero_lt_succ 1)) S384x14
    (m ((c : Thread nD τ).loc main_arg3)) rfl rfl 2 rfl (ix2 κ o) (fun b hb => ?_) ?_
  · match b with
    | ⟨0, _⟩ => rfl
    | ⟨1, _⟩ => exact absurd rfl hb
  · show 2 + o.val = j.val; omega

/-- In the direction band, column `j - 16` of the direction weights. -/
theorem weights_dir (c : Dev nD) (κ : Fin 384) (o : Fin 4) (j : Fin 32) (hj : j.val = 16 + o.val) :
    (entryAt m c main_v1 : S384x32.Idx → Elt F .f32) (ix2 κ j) = (m ((c : Thread nD τ).loc main_arg5) : S384x4.Idx → Elt F .f32) (ix2 κ o) := by
  rw [entry_weights]
  refine (pad_apply_of_inside _ _ _ _ _ _ _ (ix2 κ j) (ix2 κ (⟨j.val, by omega⟩ : Fin 20)) fun a => ?_).trans ?_
  · match a with
    | ⟨0, _⟩ => show κ.val = 0 + κ.val * (0 + 1); omega
    | ⟨1, _⟩ => show j.val = 0 + j.val * (0 + 1); omega
  refine concatenate_apply_piece 1
    [⟨S384x2, m ((c : Thread nD τ).loc main_arg1)⟩, ⟨S384x14, m ((c : Thread nD τ).loc main_arg3)⟩, ⟨S384x4, m ((c : Thread nD τ).loc main_arg5)⟩]
    concatenates_S384x2_S384x14_S384x4_S384x20_d1 (ix2 κ (⟨j.val, by omega⟩ : Fin 20)) 2 (Nat.succ_lt_succ (Nat.succ_lt_succ (Nat.zero_lt_succ 0))) S384x4
    (m ((c : Thread nD τ).loc main_arg5)) rfl rfl 16 rfl (ix2 κ o) (fun b hb => ?_) ?_
  · match b with
    | ⟨0, _⟩ => rfl
    | ⟨1, _⟩ => exact absurd rfl hb
  · show 16 + o.val = j.val; omega

/-- Entry `j` of the padded bias row, for `j` in the classification band, is that entry of the classification bias. -/
theorem bias_cls (c : Dev nD) (o : Fin 2) (j : Fin 32) (hj : j.val = 0 + o.val) :
    (entryAt m c main_v4 : S1x32.Idx → Elt F .f32) (ix2 0 j) = (m ((c : Thread nD τ).loc main_arg2) : S2.Idx → Elt F .f32) (ix1 o) := by
  rw [entry_bias]
  refine (broadcastInDim_apply _ _ _ (ix2 0 j) (ix1 j) fun a => ?_).trans ?_
  · match a with
    | ⟨0, _⟩ => show j.val = if (32 : Nat) = 1 then 0 else j.val; rw [if_neg (by decide)]
  refine (pad_apply_of_inside _ _ _ _ _ _ _ (ix1 j) (ix1 (⟨j.val, by omega⟩ : Fin 20)) fun a => ?_).trans ?_
  · match a with
    | ⟨0, _⟩ => show j.val = 0 + j.val * (0 + 1); omega
  refine concatenate_apply_piece 0
    [⟨S2, m ((c : Thread nD τ).loc main_arg2)⟩, ⟨S14, m ((c : Thread nD τ).loc main_arg4)⟩, ⟨S4, m ((c : Thread nD τ).loc main_arg6)⟩]
    concatenates_S2_S14_S4_S20_d0 (ix1 (⟨j.val, by omega⟩ : Fin 20)) 0 (Nat.zero_lt_succ 2) S2
    (m ((c : Thread nD τ).loc main_arg2)) rfl rfl 0 rfl (ix1 o) (fun b hb => ?_) ?_
  · match b with
    | ⟨0, _⟩ => exact absurd rfl hb
  · show 0 + o.val = j.val; omega

/-- In the regression band, entry `j - 2` of the regression bias. -/
theorem bias_reg (c : Dev nD) (o : Fin 14) (j : Fin 32) (hj : j.val = 2 + o.val) :
    (entryAt m c main_v4 : S1x32.Idx → Elt F .f32) (ix2 0 j) = (m ((c : Thread nD τ).loc main_arg4) : S14.Idx → Elt F .f32) (ix1 o) := by
  rw [entry_bias]
  refine (broadcastInDim_apply _ _ _ (ix2 0 j) (ix1 j) fun a => ?_).trans ?_
  · match a with
    | ⟨0, _⟩ => show j.val = if (32 : Nat) = 1 then 0 else j.val; rw [if_neg (by decide)]
  refine (pad_apply_of_inside _ _ _ _ _ _ _ (ix1 j) (ix1 (⟨j.val, by omega⟩ : Fin 20)) fun a => ?_).trans ?_
  · match a with
    | ⟨0, _⟩ => show j.val = 0 + j.val * (0 + 1); omega
  refine concatenate_apply_piece 0
    [⟨S2, m ((c : Thread nD τ).loc main_arg2)⟩, ⟨S14, m ((c : Thread nD τ).loc main_arg4)⟩, ⟨S4, m ((c : Thread nD τ).loc main_arg6)⟩]
    concatenates_S2_S14_S4_S20_d0 (ix1 (⟨j.val, by omega⟩ : Fin 20)) 1 (Nat.succ_lt_succ (Nat.zero_lt_succ 1)) S14
    (m ((c : Thread nD τ).loc main_arg4)) rfl rfl 2 rfl (ix1 o) (fun b hb => ?_) ?_
  · match b with
    | ⟨0, _⟩ => exact absurd rfl hb
  · show 2 + o.val = j.val; omega

/-- In the direction band, entry `j - 16` of the direction bias. -/
theorem bias_dir (c : Dev nD) (o : Fin 4) (j : Fin 32) (hj : j.val = 16 + o.val) :
    (entryAt m c main_v4 : S1x32.Idx → Elt F .f32) (ix2 0 j) = (m ((c : Thread nD τ).loc main_arg6) : S4.Idx → Elt F .f32) (ix1 o) := by
  rw [entry_bias]
  refine (broadcastInDim_apply _ _ _ (ix2 0 j) (ix1 j) fun a => ?_).trans ?_
  · match a with
    | ⟨0, _⟩ => show j.val = if (32 : Nat) = 1 then 0 else j.val; rw [if_neg (by decide)]
  refine (pad_apply_of_inside _ _ _ _ _ _ _ (ix1 j) (ix1 (⟨j.val, by omega⟩ : Fin 20)) fun a => ?_).trans ?_
  · match a with
    | ⟨0, _⟩ => show j.val = 0 + j.val * (0 + 1); omega
  refine concatenate_apply_piece 0
    [⟨S2, m ((c : Thread nD τ).loc main_arg2)⟩, ⟨S14, m ((c : Thread nD τ).loc main_arg4)⟩, ⟨S4, m ((c : Thread nD τ).loc main_arg6)⟩]
    concatenates_S2_S14_S4_S20_d0 (ix1 (⟨j.val, by omega⟩ : Fin 20)) 2 (Nat.succ_lt_succ (Nat.succ_lt_succ (Nat.zero_lt_succ 0))) S4
    (m ((c : Thread nD τ).loc main_arg6)) rfl rfl 16 rfl (ix1 o) (fun b hb => ?_) ?_
  · match b with
    | ⟨0, _⟩ => exact absurd rfl hb
  · show 16 + o.val = j.val; omega

end Cert.KernelIdeal.Heads

end
-- ==== Proof.HeadSpec.lean ====
/-
  One 1×1 convolution head on a channels-last feature map: at pixel (y, x) of image b, output channel o is the pixel's
  384 channels against column o of the head's weight matrix, plus entry o of the head's bias,

      head (b, y, x, o) = ∑ κ < 384, xt (b, y, x, κ) · W (κ, o) + B (o).

  Both programs compute this for each of the three heads and then move the channel axis to position 1; the kernel gets
  there through one product with the three weight matrices laid side by side, the reference through three products.
-/
import Idealize.ShloMosaic.Lib.ValueIdx
import Idealize.ShloMosaic.PureOps.Ideal

noncomputable section

namespace Cert.HeadSpec

open Idealize.ShloMosaic Idealize.ShloMosaic.ValueIdx

/-- A head of `n` output channels, on the channels-last feature map `xt`. -/
def headSum {n : Nat} (xt : (⟨4, ![8, 200, 176, 384]⟩ : Shape).Idx → EReal) (W : (⟨2, ![384, n]⟩ : Shape).Idx → EReal)
    (B : (⟨1, ![n]⟩ : Shape).Idx → EReal) : (⟨4, ![8, 200, 176, n]⟩ : Shape).Idx → EReal :=
  fun j => (∑ κ : Fin 384, xt (ix4 (j 0) (j 1) (j 2) κ) * W (ix2 κ (j 3))) + B (ix1 (j 3))

theorem headSum_apply {n : Nat} (xt : (⟨4, ![8, 200, 176, 384]⟩ : Shape).Idx → EReal) (W : (⟨2, ![384, n]⟩ : Shape).Idx → EReal)
    (B : (⟨1, ![n]⟩ : Shape).Idx → EReal) (b : Fin 8) (y : Fin 200) (x : Fin 176) (o : Fin n) :
    headSum xt W B (ix4 b y x o) = (∑ κ : Fin 384, xt (ix4 b y x κ) * W (ix2 κ o)) + B (ix1 o) := rfl

end Cert.HeadSpec

end
-- ==== Proof.HeadsValue.lean ====
/-
  The three result arrays of the pipeline, as whole-array functions of the launch contents, at the ideal values.

  Grid point t = (image, band of 40 rows) writes back, for each head, the block whose entry (0, r, q, o) is pixel
  (40·band + r, q) of that image against column o of the head's weights plus entry o of its bias: the body's store is
  that entry of the 7040×32 product plus bias, the feature block is rows 40·band … 40·band + 39 of the image, and the
  padded weight and bias blocks are the whole padded arrays, which in the head's band of columns are the head's own.
  The forty blocks of each result tile its array, so after the last point each result array is the head of the
  specification on the channels-last feature map; the three transposes after the region then move the channel axis.
-/
import proofs.«168696_g47064251629653_cont_8to1c4_533_7_alg».proof.Proof.HeadsRunIdeal
import proofs.«168696_g47064251629653_cont_8to1c4_533_7_alg».proof.Proof.HeadPayload
import proofs.«168696_g47064251629653_cont_8to1c4_533_7_alg».proof.Proof.HeadEntry
import proofs.«168696_g47064251629653_cont_8to1c4_533_7_alg».proof.Proof.HeadSpec

set_option maxRecDepth 16384

noncomputable section

namespace Cert.KernelIdeal.Heads

open Cert.KernelIdeal Cert.KernelIdeal.Gen Cert.KernelIdeal.HeadMath Cert.HeadSpec
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ) (ρ : Dev nD → PrngReg)

theorem zeros4 : (![0, 0, 0, 0] : Fin 4 → Nat) = fun _ => 0 := funext fun a => by fin_cases a <;> rfl
theorem zeros2 : (![0, 0] : Fin 2 → Nat) = fun _ => 0 := funext fun a => by fin_cases a <;> rfl

/-! ## The arrays and blocks by their literal types -/

/-- The channels-last feature map the region finds. -/
abbrev featArr (c : Dev nD) : S8x200x176x384.Idx → EReal := entryAt m c main_v5
/-- The padded weights and the padded bias row it finds. -/
abbrev wpadArr (c : Dev nD) : S384x32.Idx → EReal := entryAt m c main_v1
abbrev bpadArr (c : Dev nD) : S1x32.Idx → EReal := entryAt m c main_v4
/-- The three input blocks at a point. -/
abbrev xblk (c : Dev nD) (t : Fin cfg0.N) : Vec Ideal S1x40x176x384 .f32 := iblk m c 0 t
abbrev wblk (c : Dev nD) (t : Fin cfg0.N) : Vec Ideal S384x32 .f32 := iblk m c 1 t
abbrev bblk (c : Dev nD) (t : Fin cfg0.N) : Vec Ideal S1x32 .f32 := iblk m c 2 t

/-! ## The index maps over the grid -/

/-- Decided over the forty points: the feature window and the three result windows sit at the same (image, band) block;
    the weight and bias windows never move; an image index is below 8 and a band index below 5. -/
theorem index_facts : ∀ t : Fin cfg0.N,
    win0_0.index t (0 : Fin 4) = win0_3.index t (0 : Fin 4) ∧ win0_0.index t (1 : Fin 4) = win0_3.index t (1 : Fin 4)
    ∧ win0_4.index t (0 : Fin 4) = win0_3.index t (0 : Fin 4) ∧ win0_4.index t (1 : Fin 4) = win0_3.index t (1 : Fin 4)
    ∧ win0_5.index t (0 : Fin 4) = win0_3.index t (0 : Fin 4) ∧ win0_5.index t (1 : Fin 4) = win0_3.index t (1 : Fin 4)
    ∧ win0_0.index t (2 : Fin 4) = 0 ∧ win0_0.index t (3 : Fin 4) = 0
    ∧ win0_3.index t (2 : Fin 4) = 0 ∧ win0_3.index t (3 : Fin 4) = 0
    ∧ win0_4.index t (2 : Fin 4) = 0 ∧ win0_4.index t (3 : Fin 4) = 0
    ∧ win0_5.index t (2 : Fin 4) = 0 ∧ win0_5.index t (3 : Fin 4) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 4) < 8 ∧ win0_3.index t (1 : Fin 4) < 5 :=
  (by decide +kernel : ∀ t : Fin grid0.N, _)

/-- Every (image, band) block is some point's. -/
theorem index_onto : ∀ (i0 : Fin 8) (i1 : Fin 5), ∃ t : Fin cfg0.N,
    win0_3.index t (0 : Fin 4) = i0.val ∧ win0_3.index t (1 : Fin 4) = i1.val :=
  (by decide +kernel : ∀ (i0 : Fin 8) (i1 : Fin 5), ∃ t : Fin grid0.N, win0_3.index t (0 : Fin 4) = i0.val ∧ win0_3.index t (1 : Fin 4) = i1.val)

/-! ## The input blocks, read -/

/-- The feature block at a point is rows 40·band … of image `image` of the channels-last feature map. -/
theorem xblk_apply (c : Dev nD) (t : Fin cfg0.N) (i0 : Fin 8) (i1 : Fin 5) (h0 : win0_3.index t (0 : Fin 4) = i0.val)
    (h1 : win0_3.index t (1 : Fin 4) = i1.val) (r : Fin 40) (q : Fin 176) (κ : Fin 384) :
    xblk m c t (ix4 0 r q κ) = featArr m c (ix4 i0 (⟨i1.val * 40 + r.val, by omega⟩ : Fin 200) q κ) := by
  obtain ⟨e0, e1, -, -, -, -, e2, e3, -⟩ := index_facts t
  show entryAt m c main_v5 (((cfg0.win 0).blk t).view.emb (ix4 0 r q κ)) = entryAt m c main_v5 _
  refine congrArg _ (funext fun a => Fin.ext ?_)
  match a with
  | ⟨0, _⟩ => show win0_0.index t (0 : Fin 4) * 1 + 1 * 0 = i0.val; omega
  | ⟨1, _⟩ => show win0_0.index t (1 : Fin 4) * 40 + 1 * r.val = i1.val * 40 + r.val; omega
  | ⟨2, _⟩ => show win0_0.index t (2 : Fin 4) * 176 + 1 * q.val = q.val; omega
  | ⟨3, _⟩ => show win0_0.index t (3 : Fin 4) * 384 + 1 * κ.val = κ.val; omega

/-- The weight block is the whole padded weight array at every point, -/
theorem wblk_apply (c : Dev nD) (t : Fin cfg0.N) (κ : Fin 384) (j : Fin 32) : wblk m c t (ix2 κ j) = wpadArr m c (ix2 κ j) := by
  obtain ⟨-, -, -, -, -, -, -, -, -, -, -, -, -, -, e0, e1, -⟩ := index_facts t
  show entryAt m c main_v1 (((cfg0.win 1).blk t).view.emb (ix2 κ j)) = entryAt m c main_v1 _
  refine congrArg _ (funext fun a => Fin.ext ?_)
  match a with
  | ⟨0, _⟩ => show win0_1.index t (0 : Fin 2) * 384 + 1 * κ.val = κ.val; omega
  | ⟨1, _⟩ => show win0_1.index t (1 : Fin 2) * 32 + 1 * j.val = j.val; omega

/-- and the bias block the whole padded bias row. -/
theorem bblk_apply (c : Dev nD) (t : Fin cfg0.N) (j : Fin 32) : bblk m c t (ix2 0 j) = bpadArr m c (ix2 0 j) := by
  obtain ⟨-, -, -, -, -, -, -, -, -, -, -, -, -, -, -, -, e0, e1, -⟩ := index_facts t
  show entryAt m c main_v4 (((cfg0.win 2).blk t).view.emb (ix2 0 j)) = entryAt m c main_v4 _
  refine congrArg _ (funext fun a => Fin.ext ?_)
  match a with
  | ⟨0, _⟩ => show win0_2.index t (0 : Fin 2) * 1 + 1 * 0 = 0; omega
  | ⟨1, _⟩ => show win0_2.index t (1 : Fin 2) * 32 + 1 * j.val = j.val; omega

end Cert.KernelIdeal.Heads

end
-- ==== Proof.HeadCls.lean ====
/-
  The classification head of the pipeline's results: what each grid point writes back for it, that the forty blocks tile its
  array, and so what the array holds after the last point and after the transpose that follows the region.
-/
import proofs.«168696_g47064251629653_cont_8to1c4_533_7_alg».proof.Proof.HeadsValue

set_option maxRecDepth 16384

noncomputable section

namespace Cert.KernelIdeal.Heads

open Cert.KernelIdeal Cert.KernelIdeal.Gen Cert.KernelIdeal.HeadMath Cert.HeadSpec
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ)

/-! ## The classification head -/

/-- The head's own weights and bias, as launched. -/
abbrev clsW (c : Dev nD) : S384x2.Idx → EReal := m ((c : Thread nD τ).loc main_arg1)
abbrev clsB (c : Dev nD) : S2.Idx → EReal := m ((c : Thread nD τ).loc main_arg2)
/-- The head on the channels-last feature map the region finds. -/
abbrev clsHead (c : Dev nD) : S8x200x176x2.Idx → EReal := headSum (n := 2) (featArr m c) (clsW m c) (clsB m c)

/-- The body's store at a point, entry by entry, is the head at the pixel the entry stands for. -/
theorem cls_block (c : Dev nD) (t : Fin cfg0.N) (r : Fin 40) (q : Fin 176) (o : Fin 2) :
    k0_pay2 (F := Ideal) (xblk m c t) (wblk m c t) (bblk m c t) (ix4 0 r q o)
      = clsHead m c (((cfg0.win 3).blk t).view.emb (ix4 0 r q o)) := by
  obtain ⟨-, -, g0, g1, g2, g3, -, -, z32, z33, z42, z43, z52, z53, -, -, -, -, lt0, lt1⟩ := index_facts t
  have hemb : ((cfg0.win 3).blk t).view.emb (ix4 0 r q o)
      = (ix4 (⟨win0_3.index t (0 : Fin 4), lt0⟩ : Fin 8) (⟨(⟨win0_3.index t (1 : Fin 4), lt1⟩ : Fin 5).val * 40 + r.val, by show win0_3.index t (1 : Fin 4) * 40 + r.val < 200; omega⟩ : Fin 200) q o : S8x200x176x2.Idx) :=
    funext fun a => Fin.ext (by
      match a with
      | ⟨0, _⟩ => show win0_3.index t (0 : Fin 4) * 1 + 1 * 0 = win0_3.index t (0 : Fin 4); omega
      | ⟨1, _⟩ => show win0_3.index t (1 : Fin 4) * 40 + 1 * r.val = win0_3.index t (1 : Fin 4) * 40 + r.val; omega
      | ⟨2, _⟩ => show win0_3.index t (2 : Fin 4) * 176 + 1 * q.val = q.val; omega
      | ⟨3, _⟩ => show win0_3.index t (3 : Fin 4) * 2 + 1 * o.val = o.val; omega)
  rw [hemb]
  show _ = headSum (n := 2) (featArr m c) (clsW m c) (clsB m c) (ix4 _ _ q o)
  rw [headSum_apply]
  refine (cls_pay_apply (xblk m c t) (wblk m c t) (bblk m c t) r q o (⟨0 + o.val, by omega⟩ : Fin 32) rfl).trans ?_
  congr 1
  · refine Finset.sum_congr rfl fun κ _ => ?_
    rw [xblk_apply m c t (⟨win0_3.index t (0 : Fin 4), lt0⟩ : Fin 8) (⟨win0_3.index t (1 : Fin 4), lt1⟩ : Fin 5) rfl rfl r q κ, wblk_apply]
    exact congrArg _ (weights_cls m c κ o (⟨0 + o.val, by omega⟩ : Fin 32) rfl)
  · rw [bblk_apply]
    exact bias_cls m c o (⟨0 + o.val, by omega⟩ : Fin 32) rfl

/-- What point `t` writes back is block `t` of the head. -/
theorem cls_flushed (c : Dev nD) (t : Fin cfg0.N) :
    (blocksData m 0 c).flushed 3 t = ((cfg0.win 3).blk t).view.read (Elt Ideal) (clsHead m c) := by
  show (cfg0.win 3).cut (grid0.coords t) ((blocksData m 0 c).after 3 t) = _
  rw [after_cls]
  unfold clsOut
  rw [View.canon_unit_zero zeros4]
  simp only [View.ld_unit_zero (S := S1x40x176x384) zeros4, View.ld_unit_zero (S := S384x32) zeros2, View.ld_unit_zero (S := S1x32) zeros2]
  funext y
  obtain ⟨r, q, o, rfl⟩ : ∃ (r : Fin 40) (q : Fin 176) (o : Fin 2), y = ix4 0 r q o := ⟨y 1, y 2, y 3, funext fun a => by
    match a with
    | ⟨0, _⟩ => exact Fin.ext (by have h : (y 0).val < 1 := (y 0).isLt; show (y 0).val = 0; omega)
    | ⟨1, _⟩ => rfl
    | ⟨2, _⟩ => rfl
    | ⟨3, _⟩ => rfl⟩
  exact cls_block m c t r q o

/-- An index of the result array is in point `t`'s block iff each coordinate is in the block's range on its axis. -/
theorem cls_mem_blk (t : Fin cfg0.N) (i : S8x200x176x2.Idx) :
    i ∈ ((cfg0.win 3).blk t).view.set ↔ ∀ a : Fin 4, win0_3.index t a * S1x40x176x2.size a ≤ (i a).val ∧ (i a).val < win0_3.index t a * S1x40x176x2.size a + S1x40x176x2.size a := by
  show i ∈ ((View.whole main_v6_0).slice (win0_3.rect t)).set ↔ _
  rw [View.set_slice_whole, Rect.mem_set_unit]
  exact Iff.rfl

/-- The forty blocks tile the result array: pixel row `y` of image `b` is in the block of point (b, y / 40). -/
theorem cls_tiles (i : S8x200x176x2.Idx) : ∃ t : Fin cfg0.N, (cfg0.win 3).flush t = true ∧ i ∈ ((cfg0.win 3).blk t).view.set := by
  have hi0 : (i 0).val < 8 := (i 0).isLt
  have hi1 : (i 1).val < 200 := (i 1).isLt
  have hi2 : (i 2).val < 176 := (i 2).isLt
  have hi3 : (i 3).val < 2 := (i 3).isLt
  obtain ⟨t, h0, h1⟩ := index_onto (⟨(i 0).val, hi0⟩ : Fin 8) (⟨(i 1).val / 40, by omega⟩ : Fin 5)
  have h0' : win0_3.index t (0 : Fin 4) = (i 0).val := h0
  have h1' : win0_3.index t (1 : Fin 4) = (i 1).val / 40 := h1
  obtain ⟨-, -, g0, g1, g2, g3, -, -, z32, z33, z42, z43, z52, z53, -, -, -, -, lt0, lt1⟩ := index_facts t
  refine ⟨t, flush0_3 t, ?_⟩
  rw [cls_mem_blk]
  intro a
  match a with
  | ⟨0, _⟩ => show win0_3.index t (0 : Fin 4) * 1 ≤ (i 0).val ∧ (i 0).val < win0_3.index t (0 : Fin 4) * 1 + 1; omega
  | ⟨1, _⟩ => show win0_3.index t (1 : Fin 4) * 40 ≤ (i 1).val ∧ (i 1).val < win0_3.index t (1 : Fin 4) * 40 + 40; omega
  | ⟨2, _⟩ => show win0_3.index t (2 : Fin 4) * 176 ≤ (i 2).val ∧ (i 2).val < win0_3.index t (2 : Fin 4) * 176 + 176; omega
  | ⟨3, _⟩ => show win0_3.index t (3 : Fin 4) * 2 ≤ (i 3).val ∧ (i 3).val < win0_3.index t (3 : Fin 4) * 2 + 2; omega

/-- So after the last point the result array is the head. -/
theorem cls_final (c : Dev nD) : (blocksData m 0 c).arrAt 3 cfg0.N = clsHead m c :=
  (blocksData m 0 c).arrAt_eq_of_cover 3 (clsHead m c) (fun t _ => cls_flushed m c t) (cls_tiles)

/-- And the transpose after the region leaves the head with its channel axis at position 1. -/
theorem cls_exit (c : Dev nD) : (Pipeline.afterTail₀ cfgs (blocksData m) 0 (entryVal m) [hostOps1] c main_v7 : S8x2x200x176.Idx → EReal)
    = transpose S8x2x200x176 [0, 3, 1, 2] (clsHead m c) transposes_S8x200x176x2_S8x2x200x176_0_3_1_2 := by
  unfold Pipeline.afterTail₀
  show StableHlo.after hostOps1 _ (Proc.devRef .tc main_v7) = _
  after_results
  rw [(Pipeline.withArrays_arr spec0 launch0.win.arr_inj c _ _ 3).trans (cls_final m c)]

end Cert.KernelIdeal.Heads

end
-- ==== Proof.HeadReg.lean ====
/-
  The regression head of the pipeline's results: what each grid point writes back for it, that the forty blocks tile its
  array, and so what the array holds after the last point and after the transpose that follows the region.
-/
import proofs.«168696_g47064251629653_cont_8to1c4_533_7_alg».proof.Proof.HeadsValue

set_option maxRecDepth 16384

noncomputable section

namespace Cert.KernelIdeal.Heads

open Cert.KernelIdeal Cert.KernelIdeal.Gen Cert.KernelIdeal.HeadMath Cert.HeadSpec
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ)

/-! ## The regression head -/

/-- The head's own weights and bias, as launched. -/
abbrev regW (c : Dev nD) : S384x14.Idx → EReal := m ((c : Thread nD τ).loc main_arg3)
abbrev regB (c : Dev nD) : S14.Idx → EReal := m ((c : Thread nD τ).loc main_arg4)
/-- The head on the channels-last feature map the region finds. -/
abbrev regHead (c : Dev nD) : S8x200x176x14.Idx → EReal := headSum (n := 14) (featArr m c) (regW m c) (regB m c)

/-- The body's store at a point, entry by entry, is the head at the pixel the entry stands for. -/
theorem reg_block (c : Dev nD) (t : Fin cfg0.N) (r : Fin 40) (q : Fin 176) (o : Fin 14) :
    k0_pay3 (F := Ideal) (xblk m c t) (wblk m c t) (bblk m c t) (ix4 0 r q o)
      = regHead m c (((cfg0.win 4).blk t).view.emb (ix4 0 r q o)) := by
  obtain ⟨-, -, g0, g1, g2, g3, -, -, z32, z33, z42, z43, z52, z53, -, -, -, -, lt0, lt1⟩ := index_facts t
  have hemb : ((cfg0.win 4).blk t).view.emb (ix4 0 r q o)
      = (ix4 (⟨win0_3.index t (0 : Fin 4), lt0⟩ : Fin 8) (⟨(⟨win0_3.index t (1 : Fin 4), lt1⟩ : Fin 5).val * 40 + r.val, by show win0_3.index t (1 : Fin 4) * 40 + r.val < 200; omega⟩ : Fin 200) q o : S8x200x176x14.Idx) :=
    funext fun a => Fin.ext (by
      match a with
      | ⟨0, _⟩ => show win0_4.index t (0 : Fin 4) * 1 + 1 * 0 = win0_3.index t (0 : Fin 4); omega
      | ⟨1, _⟩ => show win0_4.index t (1 : Fin 4) * 40 + 1 * r.val = win0_3.index t (1 : Fin 4) * 40 + r.val; omega
      | ⟨2, _⟩ => show win0_4.index t (2 : Fin 4) * 176 + 1 * q.val = q.val; omega
      | ⟨3, _⟩ => show win0_4.index t (3 : Fin 4) * 14 + 1 * o.val = o.val; omega)
  rw [hemb]
  show _ = headSum (n := 14) (featArr m c) (regW m c) (regB m c) (ix4 _ _ q o)
  rw [headSum_apply]
  refine (reg_pay_apply (xblk m c t) (wblk m c t) (bblk m c t) r q o (⟨2 + o.val, by omega⟩ : Fin 32) rfl).trans ?_
  congr 1
  · refine Finset.sum_congr rfl fun κ _ => ?_
    rw [xblk_apply m c t (⟨win0_3.index t (0 : Fin 4), lt0⟩ : Fin 8) (⟨win0_3.index t (1 : Fin 4), lt1⟩ : Fin 5) rfl rfl r q κ, wblk_apply]
    exact congrArg _ (weights_reg m c κ o (⟨2 + o.val, by omega⟩ : Fin 32) rfl)
  · rw [bblk_apply]
    exact bias_reg m c o (⟨2 + o.val, by omega⟩ : Fin 32) rfl

/-- What point `t` writes back is block `t` of the head. -/
theorem reg_flushed (c : Dev nD) (t : Fin cfg0.N) :
    (blocksData m 0 c).flushed 4 t = ((cfg0.win 4).blk t).view.read (Elt Ideal) (regHead m c) := by
  show (cfg0.win 4).cut (grid0.coords t) ((blocksData m 0 c).after 4 t) = _
  rw [after_reg]
  unfold regOut
  rw [View.canon_unit_zero zeros4]
  simp only [View.ld_unit_zero (S := S1x40x176x384) zeros4, View.ld_unit_zero (S := S384x32) zeros2, View.ld_unit_zero (S := S1x32) zeros2]
  funext y
  obtain ⟨r, q, o, rfl⟩ : ∃ (r : Fin 40) (q : Fin 176) (o : Fin 14), y = ix4 0 r q o := ⟨y 1, y 2, y 3, funext fun a => by
    match a with
    | ⟨0, _⟩ => exact Fin.ext (by have h : (y 0).val < 1 := (y 0).isLt; show (y 0).val = 0; omega)
    | ⟨1, _⟩ => rfl
    | ⟨2, _⟩ => rfl
    | ⟨3, _⟩ => rfl⟩
  exact reg_block m c t r q o

/-- An index of the result array is in point `t`'s block iff each coordinate is in the block's range on its axis. -/
theorem reg_mem_blk (t : Fin cfg0.N) (i : S8x200x176x14.Idx) :
    i ∈ ((cfg0.win 4).blk t).view.set ↔ ∀ a : Fin 4, win0_4.index t a * S1x40x176x14.size a ≤ (i a).val ∧ (i a).val < win0_4.index t a * S1x40x176x14.size a + S1x40x176x14.size a := by
  show i ∈ ((View.whole main_v6_1).slice (win0_4.rect t)).set ↔ _
  rw [View.set_slice_whole, Rect.mem_set_unit]
  exact Iff.rfl

/-- The forty blocks tile the result array: pixel row `y` of image `b` is in the block of point (b, y / 40). -/
theorem reg_tiles (i : S8x200x176x14.Idx) : ∃ t : Fin cfg0.N, (cfg0.win 4).flush t = true ∧ i ∈ ((cfg0.win 4).blk t).view.set := by
  have hi0 : (i 0).val < 8 := (i 0).isLt
  have hi1 : (i 1).val < 200 := (i 1).isLt
  have hi2 : (i 2).val < 176 := (i 2).isLt
  have hi3 : (i 3).val < 14 := (i 3).isLt
  obtain ⟨t, h0, h1⟩ := index_onto (⟨(i 0).val, hi0⟩ : Fin 8) (⟨(i 1).val / 40, by omega⟩ : Fin 5)
  have h0' : win0_3.index t (0 : Fin 4) = (i 0).val := h0
  have h1' : win0_3.index t (1 : Fin 4) = (i 1).val / 40 := h1
  obtain ⟨-, -, g0, g1, g2, g3, -, -, z32, z33, z42, z43, z52, z53, -, -, -, -, lt0, lt1⟩ := index_facts t
  refine ⟨t, flush0_4 t, ?_⟩
  rw [reg_mem_blk]
  intro a
  match a with
  | ⟨0, _⟩ => show win0_4.index t (0 : Fin 4) * 1 ≤ (i 0).val ∧ (i 0).val < win0_4.index t (0 : Fin 4) * 1 + 1; omega
  | ⟨1, _⟩ => show win0_4.index t (1 : Fin 4) * 40 ≤ (i 1).val ∧ (i 1).val < win0_4.index t (1 : Fin 4) * 40 + 40; omega
  | ⟨2, _⟩ => show win0_4.index t (2 : Fin 4) * 176 ≤ (i 2).val ∧ (i 2).val < win0_4.index t (2 : Fin 4) * 176 + 176; omega
  | ⟨3, _⟩ => show win0_4.index t (3 : Fin 4) * 14 ≤ (i 3).val ∧ (i 3).val < win0_4.index t (3 : Fin 4) * 14 + 14; omega

/-- So after the last point the result array is the head. -/
theorem reg_final (c : Dev nD) : (blocksData m 0 c).arrAt 4 cfg0.N = regHead m c :=
  (blocksData m 0 c).arrAt_eq_of_cover 4 (regHead m c) (fun t _ => reg_flushed m c t) (reg_tiles)

/-- And the transpose after the region leaves the head with its channel axis at position 1. -/
theorem reg_exit (c : Dev nD) : (Pipeline.afterTail₀ cfgs (blocksData m) 0 (entryVal m) [hostOps1] c main_v8 : S8x14x200x176.Idx → EReal)
    = transpose S8x14x200x176 [0, 3, 1, 2] (regHead m c) transposes_S8x200x176x14_S8x14x200x176_0_3_1_2 := by
  unfold Pipeline.afterTail₀
  show StableHlo.after hostOps1 _ (Proc.devRef .tc main_v8) = _
  after_results
  rw [(Pipeline.withArrays_arr spec0 launch0.win.arr_inj c _ _ 4).trans (reg_final m c)]

end Cert.KernelIdeal.Heads

end
-- ==== Proof.HeadDir.lean ====
/-
  The direction head of the pipeline's results: what each grid point writes back for it, that the forty blocks tile its
  array, and so what the array holds after the last point and after the transpose that follows the region.
-/
import proofs.«168696_g47064251629653_cont_8to1c4_533_7_alg».proof.Proof.HeadsValue

set_option maxRecDepth 16384

noncomputable section

namespace Cert.KernelIdeal.Heads

open Cert.KernelIdeal Cert.KernelIdeal.Gen Cert.KernelIdeal.HeadMath Cert.HeadSpec
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ)

/-! ## The direction head -/

/-- The head's own weights and bias, as launched. -/
abbrev dirW (c : Dev nD) : S384x4.Idx → EReal := m ((c : Thread nD τ).loc main_arg5)
abbrev dirB (c : Dev nD) : S4.Idx → EReal := m ((c : Thread nD τ).loc main_arg6)
/-- The head on the channels-last feature map the region finds. -/
abbrev dirHead (c : Dev nD) : S8x200x176x4.Idx → EReal := headSum (n := 4) (featArr m c) (dirW m c) (dirB m c)

/-- The body's store at a point, entry by entry, is the head at the pixel the entry stands for. -/
theorem dir_block (c : Dev nD) (t : Fin cfg0.N) (r : Fin 40) (q : Fin 176) (o : Fin 4) :
    k0_pay4 (F := Ideal) (xblk m c t) (wblk m c t) (bblk m c t) (ix4 0 r q o)
      = dirHead m c (((cfg0.win 5).blk t).view.emb (ix4 0 r q o)) := by
  obtain ⟨-, -, g0, g1, g2, g3, -, -, z32, z33, z42, z43, z52, z53, -, -, -, -, lt0, lt1⟩ := index_facts t
  have hemb : ((cfg0.win 5).blk t).view.emb (ix4 0 r q o)
      = (ix4 (⟨win0_3.index t (0 : Fin 4), lt0⟩ : Fin 8) (⟨(⟨win0_3.index t (1 : Fin 4), lt1⟩ : Fin 5).val * 40 + r.val, by show win0_3.index t (1 : Fin 4) * 40 + r.val < 200; omega⟩ : Fin 200) q o : S8x200x176x4.Idx) :=
    funext fun a => Fin.ext (by
      match a with
      | ⟨0, _⟩ => show win0_5.index t (0 : Fin 4) * 1 + 1 * 0 = win0_3.index t (0 : Fin 4); omega
      | ⟨1, _⟩ => show win0_5.index t (1 : Fin 4) * 40 + 1 * r.val = win0_3.index t (1 : Fin 4) * 40 + r.val; omega
      | ⟨2, _⟩ => show win0_5.index t (2 : Fin 4) * 176 + 1 * q.val = q.val; omega
      | ⟨3, _⟩ => show win0_5.index t (3 : Fin 4) * 4 + 1 * o.val = o.val; omega)
  rw [hemb]
  show _ = headSum (n := 4) (featArr m c) (dirW m c) (dirB m c) (ix4 _ _ q o)
  rw [headSum_apply]
  refine (dir_pay_apply (xblk m c t) (wblk m c t) (bblk m c t) r q o (⟨16 + o.val, by omega⟩ : Fin 32) rfl).trans ?_
  congr 1
  · refine Finset.sum_congr rfl fun κ _ => ?_
    rw [xblk_apply m c t (⟨win0_3.index t (0 : Fin 4), lt0⟩ : Fin 8) (⟨win0_3.index t (1 : Fin 4), lt1⟩ : Fin 5) rfl rfl r q κ, wblk_apply]
    exact congrArg _ (weights_dir m c κ o (⟨16 + o.val, by omega⟩ : Fin 32) rfl)
  · rw [bblk_apply]
    exact bias_dir m c o (⟨16 + o.val, by omega⟩ : Fin 32) rfl

/-- What point `t` writes back is block `t` of the head. -/
theorem dir_flushed (c : Dev nD) (t : Fin cfg0.N) :
    (blocksData m 0 c).flushed 5 t = ((cfg0.win 5).blk t).view.read (Elt Ideal) (dirHead m c) := by
  show (cfg0.win 5).cut (grid0.coords t) ((blocksData m 0 c).after 5 t) = _
  rw [after_dir]
  unfold dirOut
  rw [View.canon_unit_zero zeros4]
  simp only [View.ld_unit_zero (S := S1x40x176x384) zeros4, View.ld_unit_zero (S := S384x32) zeros2, View.ld_unit_zero (S := S1x32) zeros2]
  funext y
  obtain ⟨r, q, o, rfl⟩ : ∃ (r : Fin 40) (q : Fin 176) (o : Fin 4), y = ix4 0 r q o := ⟨y 1, y 2, y 3, funext fun a => by
    match a with
    | ⟨0, _⟩ => exact Fin.ext (by have h : (y 0).val < 1 := (y 0).isLt; show (y 0).val = 0; omega)
    | ⟨1, _⟩ => rfl
    | ⟨2, _⟩ => rfl
    | ⟨3, _⟩ => rfl⟩
  exact dir_block m c t r q o

/-- An index of the result array is in point `t`'s block iff each coordinate is in the block's range on its axis. -/
theorem dir_mem_blk (t : Fin cfg0.N) (i : S8x200x176x4.Idx) :
    i ∈ ((cfg0.win 5).blk t).view.set ↔ ∀ a : Fin 4, win0_5.index t a * S1x40x176x4.size a ≤ (i a).val ∧ (i a).val < win0_5.index t a * S1x40x176x4.size a + S1x40x176x4.size a := by
  show i ∈ ((View.whole main_v6_2).slice (win0_5.rect t)).set ↔ _
  rw [View.set_slice_whole, Rect.mem_set_unit]
  exact Iff.rfl

/-- The forty blocks tile the result array: pixel row `y` of image `b` is in the block of point (b, y / 40). -/
theorem dir_tiles (i : S8x200x176x4.Idx) : ∃ t : Fin cfg0.N, (cfg0.win 5).flush t = true ∧ i ∈ ((cfg0.win 5).blk t).view.set := by
  have hi0 : (i 0).val < 8 := (i 0).isLt
  have hi1 : (i 1).val < 200 := (i 1).isLt
  have hi2 : (i 2).val < 176 := (i 2).isLt
  have hi3 : (i 3).val < 4 := (i 3).isLt
  obtain ⟨t, h0, h1⟩ := index_onto (⟨(i 0).val, hi0⟩ : Fin 8) (⟨(i 1).val / 40, by omega⟩ : Fin 5)
  have h0' : win0_3.index t (0 : Fin 4) = (i 0).val := h0
  have h1' : win0_3.index t (1 : Fin 4) = (i 1).val / 40 := h1
  obtain ⟨-, -, g0, g1, g2, g3, -, -, z32, z33, z42, z43, z52, z53, -, -, -, -, lt0, lt1⟩ := index_facts t
  refine ⟨t, flush0_5 t, ?_⟩
  rw [dir_mem_blk]
  intro a
  match a with
  | ⟨0, _⟩ => show win0_5.index t (0 : Fin 4) * 1 ≤ (i 0).val ∧ (i 0).val < win0_5.index t (0 : Fin 4) * 1 + 1; omega
  | ⟨1, _⟩ => show win0_5.index t (1 : Fin 4) * 40 ≤ (i 1).val ∧ (i 1).val < win0_5.index t (1 : Fin 4) * 40 + 40; omega
  | ⟨2, _⟩ => show win0_5.index t (2 : Fin 4) * 176 ≤ (i 2).val ∧ (i 2).val < win0_5.index t (2 : Fin 4) * 176 + 176; omega
  | ⟨3, _⟩ => show win0_5.index t (3 : Fin 4) * 4 ≤ (i 3).val ∧ (i 3).val < win0_5.index t (3 : Fin 4) * 4 + 4; omega

/-- So after the last point the result array is the head. -/
theorem dir_final (c : Dev nD) : (blocksData m 0 c).arrAt 5 cfg0.N = dirHead m c :=
  (blocksData m 0 c).arrAt_eq_of_cover 5 (dirHead m c) (fun t _ => dir_flushed m c t) (dir_tiles)

/-- And the transpose after the region leaves the head with its channel axis at position 1. -/
theorem dir_exit (c : Dev nD) : (Pipeline.afterTail₀ cfgs (blocksData m) 0 (entryVal m) [hostOps1] c main_v9 : S8x4x200x176.Idx → EReal)
    = transpose S8x4x200x176 [0, 3, 1, 2] (dirHead m c) transposes_S8x200x176x4_S8x4x200x176_0_3_1_2 := by
  unfold Pipeline.afterTail₀
  show StableHlo.after hostOps1 _ (Proc.devRef .tc main_v9) = _
  after_results
  rw [(Pipeline.withArrays_arr spec0 launch0.win.arr_inj c _ _ 5).trans (dir_final m c)]

end Cert.KernelIdeal.Heads

end
-- ==== Proof.HeadsResult.lean ====
/-
  The idealized kernel's run with its three results named: each is one head of the specification on the channels-last
  feature map, with the channel axis moved to position 1; the seven argument arrays end as launched.
-/
import proofs.«168696_g47064251629653_cont_8to1c4_533_7_alg».proof.Proof.HeadCls
import proofs.«168696_g47064251629653_cont_8to1c4_533_7_alg».proof.Proof.HeadReg
import proofs.«168696_g47064251629653_cont_8to1c4_533_7_alg».proof.Proof.HeadDir

noncomputable section

namespace Cert.KernelIdeal.Heads

open Cert.KernelIdeal Cert.KernelIdeal.Gen Cert.HeadSpec
open Idealize.ShloMosaic Idealize.ShloMosaic.TcCoe Idealize.ShloMosaic.ValueIdx Idealize.SL.Sem

variable (m : (ℓ : Loc nD τ sig) → Buf (Elt Ideal) ℓ) (ρ : Dev nD → PrngReg)

/-- Each head on the feature map the region finds is the head on the launched feature map moved to channels-last. -/
theorem clsHead_eq (c : Dev nD) : clsHead m c = headSum (n := 2)
    (transpose S8x200x176x384 [0, 2, 3, 1] (m ((c : Thread nD τ).loc main_arg0)) transposes_S8x384x200x176_S8x200x176x384_0_2_3_1) (clsW m c) (clsB m c) :=
  congrArg (fun xt => headSum (n := 2) xt (clsW m c) (clsB m c)) (entry_feat m c)
theorem regHead_eq (c : Dev nD) : regHead m c = headSum (n := 14)
    (transpose S8x200x176x384 [0, 2, 3, 1] (m ((c : Thread nD τ).loc main_arg0)) transposes_S8x384x200x176_S8x200x176x384_0_2_3_1) (regW m c) (regB m c) :=
  congrArg (fun xt => headSum (n := 14) xt (regW m c) (regB m c)) (entry_feat m c)
theorem dirHead_eq (c : Dev nD) : dirHead m c = headSum (n := 4)
    (transpose S8x200x176x384 [0, 2, 3, 1] (m ((c : Thread nD τ).loc main_arg0)) transposes_S8x384x200x176_S8x200x176x384_0_2_3_1) (dirW m c) (dirB m c) :=
  congrArg (fun xt => headSum (n := 4) xt (dirW m c) (dirB m c)) (entry_feat m c)

/-- Every weakly fair execution of the idealized @main terminates with the three results at the three heads, channel axis
    at position 1, and the arguments unchanged. -/
theorem run_heads : θ_run defs (onTc (τ := τ) (main (F := Ideal))) ⟨m, fun _ => 0, ρ⟩ fun r => ∀ c : Dev nD,
      r.2.mem ((c.tc : Thread nD τ).loc main_v7) = transpose S8x2x200x176 [0, 3, 1, 2] (clsHead m c) transposes_S8x200x176x2_S8x2x200x176_0_3_1_2
      ∧ r.2.mem ((c.tc : Thread nD τ).loc main_v8) = transpose S8x14x200x176 [0, 3, 1, 2] (regHead m c) transposes_S8x200x176x14_S8x14x200x176_0_3_1_2
      ∧ r.2.mem ((c.tc : Thread nD τ).loc main_v9) = transpose S8x4x200x176 [0, 3, 1, 2] (dirHead m c) transposes_S8x200x176x4_S8x4x200x176_0_3_1_2
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
    ⟨((h c).2 main_v7 (Pipeline.mem_restRefs_of main_v7 (by decide) (by decide))).trans (cls_exit m c),
     ((h c).2 main_v8 (Pipeline.mem_restRefs_of main_v8 (by decide) (by decide))).trans (reg_exit m c),
     ((h c).2 main_v9 (Pipeline.mem_restRefs_of main_v9 (by decide) (by decide))).trans (dir_exit m c),
     ((h c).2 main_arg0 (Pipeline.mem_restRefs_of main_arg0 (by decide) (by decide))).trans (exit_arg0 m c),
     ((h c).2 main_arg1 (Pipeline.mem_restRefs_of main_arg1 (by decide) (by decide))).trans (exit_arg1 m c),
     ((h c).2 main_arg2 (Pipeline.mem_restRefs_of main_arg2 (by decide) (by decide))).trans (exit_arg2 m c),
     ((h c).2 main_arg3 (Pipeline.mem_restRefs_of main_arg3 (by decide) (by decide))).trans (exit_arg3 m c),
     ((h c).2 main_arg4 (Pipeline.mem_restRefs_of main_arg4 (by decide) (by decide))).trans (exit_arg4 m c),
     ((h c).2 main_arg5 (Pipeline.mem_restRefs_of main_arg5 (by decide) (by decide))).trans (exit_arg5 m c),
     ((h c).2 main_arg6 (Pipeline.mem_restRefs_of main_arg6 (by decide) (by decide))).trans (exit_arg6 m c)⟩) (run_main m ρ)

end Cert.KernelIdeal.Heads

end
-- ==== Proof.RefHeads.lean ====
/-
  The reference, head by head. Each head is the host's product of the channels-last feature map with the head's
  weights, contracted over the 384 channels, plus the head's bias laid along every pixel (two broadcasts: to a
  1×1×1×n row, then to every image and pixel). Read at an entry, that is the head of the specification.
-/
import proofs.«168696_g47064251629653_cont_8to1c4_533_7_alg».proof.Proof.Gen.ReferenceIdeal.Read
import proofs.«168696_g47064251629653_cont_8to1c4_533_7_alg».proof.Proof.HeadSpec

noncomputable section

namespace Cert.ReferenceIdeal.RefHeads

open Cert.ReferenceIdeal Cert.ReferenceIdeal.Gen Cert.ReferenceIdeal.Read Idealize.ShloMosaic Idealize.ShloMosaic.ValueIdx Cert.HeadSpec

/-- The classification head before its channel axis is moved. -/
theorem cls_eq (X : (⟨S8x384x200x176, .f32⟩ : BufTy).Contents (Elt Ideal)) (W : (⟨S384x2, .f32⟩ : BufTy).Contents (Elt Ideal))
    (B : (⟨S2, .f32⟩ : BufTy).Contents (Elt Ideal)) :
    val_main_v4 (F := Ideal) X W B = headSum (val_main_v0 (F := Ideal) X) W B := by
  funext i
  rw [val_main_v4_apply, val_main_v1_apply, val_main_v3_apply, val_main_v2_apply]
  have el : ∀ k : Fin 384, lidx_main_v1 i k = ix4 (i 0) (i 1) (i 2) k := fun k => funext fun a => Fin.ext (by
    match a with
    | ⟨0, _⟩ => rfl
    | ⟨1, _⟩ => rfl
    | ⟨2, _⟩ => rfl
    | ⟨3, _⟩ => rfl)
  have er : ∀ k : Fin 384, ridx_main_v1 i k = ix2 k (i 3) := fun k => funext fun a => Fin.ext (by
    match a with
    | ⟨0, _⟩ => rfl
    | ⟨1, _⟩ => rfl)
  have eb : idx_main_v2 (idx_main_v3 i) = ix1 (i 3) := funext fun a => Fin.ext (by
    match a with
    | ⟨0, _⟩ => rfl)
  simp only [el, er, eb]
  rfl

/-- The regression head. -/
theorem reg_eq (X : (⟨S8x384x200x176, .f32⟩ : BufTy).Contents (Elt Ideal)) (W : (⟨S384x14, .f32⟩ : BufTy).Contents (Elt Ideal))
    (B : (⟨S14, .f32⟩ : BufTy).Contents (Elt Ideal)) :
    val_main_v9 (F := Ideal) X W B = headSum (val_main_v0 (F := Ideal) X) W B := by
  funext i
  rw [val_main_v9_apply, val_main_v6_apply, val_main_v8_apply, val_main_v7_apply]
  have el : ∀ k : Fin 384, lidx_main_v6 i k = ix4 (i 0) (i 1) (i 2) k := fun k => funext fun a => Fin.ext (by
    match a with
    | ⟨0, _⟩ => rfl
    | ⟨1, _⟩ => rfl
    | ⟨2, _⟩ => rfl
    | ⟨3, _⟩ => rfl)
  have er : ∀ k : Fin 384, ridx_main_v6 i k = ix2 k (i 3) := fun k => funext fun a => Fin.ext (by
    match a with
    | ⟨0, _⟩ => rfl
    | ⟨1, _⟩ => rfl)
  have eb : idx_main_v7 (idx_main_v8 i) = ix1 (i 3) := funext fun a => Fin.ext (by
    match a with
    | ⟨0, _⟩ => rfl)
  simp only [el, er, eb]
  rfl

/-- The direction head. -/
theorem dir_eq (X : (⟨S8x384x200x176, .f32⟩ : BufTy).Contents (Elt Ideal)) (W : (⟨S384x4, .f32⟩ : BufTy).Contents (Elt Ideal))
    (B : (⟨S4, .f32⟩ : BufTy).Contents (Elt Ideal)) :
    val_main_v14 (F := Ideal) X W B = headSum (val_main_v0 (F := Ideal) X) W B := by
  funext i
  rw [val_main_v14_apply, val_main_v11_apply, val_main_v13_apply, val_main_v12_apply]
  have el : ∀ k : Fin 384, lidx_main_v11 i k = ix4 (i 0) (i 1) (i 2) k := fun k => funext fun a => Fin.ext (by
    match a with
    | ⟨0, _⟩ => rfl
    | ⟨1, _⟩ => rfl
    | ⟨2, _⟩ => rfl
    | ⟨3, _⟩ => rfl)
  have er : ∀ k : Fin 384, ridx_main_v11 i k = ix2 k (i 3) := fun k => funext fun a => Fin.ext (by
    match a with
    | ⟨0, _⟩ => rfl
    | ⟨1, _⟩ => rfl)
  have eb : idx_main_v12 (idx_main_v13 i) = ix1 (i 3) := funext fun a => Fin.ext (by
    match a with
    | ⟨0, _⟩ => rfl)
  simp only [el, er, eb]
  rfl

/-! ## The three results as the run states them -/

/-- The first result: the classification head, channel axis moved to position 1. -/
theorem cls_result (X : FVec Ideal S8x384x200x176 .f32) (W : FVec Ideal S384x2 .f32)
    (B : FVec Ideal S2 .f32) :
    transpose S8x2x200x176 [0, 3, 1, 2] (addf (F := Ideal) (Host.dotGeneral (F := Ideal) dot_S8x200x176x384_S384x2_S8x200x176x2_3_0_012_1_n_n none (transpose S8x200x176x384 [0, 2, 3, 1] X transposes_S8x384x200x176_S8x200x176x384_0_2_3_1) W) (broadcastInDim S8x200x176x2 ![0, 1, 2, 3] bcast_S1x1x1x2_S8x200x176x2_0_1_2_3 (broadcastInDim S1x1x1x2 ![3] bcast_S2_S1x1x1x2_3 B))) transposes_S8x200x176x2_S8x2x200x176_0_3_1_2
      = transpose S8x2x200x176 [0, 3, 1, 2] (headSum (transpose S8x200x176x384 [0, 2, 3, 1] X transposes_S8x384x200x176_S8x200x176x384_0_2_3_1) W B) transposes_S8x200x176x2_S8x2x200x176_0_3_1_2 :=
  congrArg (fun Y => transpose S8x2x200x176 [0, 3, 1, 2] Y transposes_S8x200x176x2_S8x2x200x176_0_3_1_2) (cls_eq X W B)

/-- The second: the regression head. -/
theorem reg_result (X : FVec Ideal S8x384x200x176 .f32) (W : FVec Ideal S384x14 .f32)
    (B : FVec Ideal S14 .f32) :
    transpose S8x14x200x176 [0, 3, 1, 2] (addf (F := Ideal) (Host.dotGeneral (F := Ideal) dot_S8x200x176x384_S384x14_S8x200x176x14_3_0_012_1_n_n none (transpose S8x200x176x384 [0, 2, 3, 1] X transposes_S8x384x200x176_S8x200x176x384_0_2_3_1) W) (broadcastInDim S8x200x176x14 ![0, 1, 2, 3] bcast_S1x1x1x14_S8x200x176x14_0_1_2_3 (broadcastInDim S1x1x1x14 ![3] bcast_S14_S1x1x1x14_3 B))) transposes_S8x200x176x14_S8x14x200x176_0_3_1_2
      = transpose S8x14x200x176 [0, 3, 1, 2] (headSum (transpose S8x200x176x384 [0, 2, 3, 1] X transposes_S8x384x200x176_S8x200x176x384_0_2_3_1) W B) transposes_S8x200x176x14_S8x14x200x176_0_3_1_2 :=
  congrArg (fun Y => transpose S8x14x200x176 [0, 3, 1, 2] Y transposes_S8x200x176x14_S8x14x200x176_0_3_1_2) (reg_eq X W B)

/-- The third: the direction head. -/
theorem dir_result (X : FVec Ideal S8x384x200x176 .f32) (W : FVec Ideal S384x4 .f32)
    (B : FVec Ideal S4 .f32) :
    transpose S8x4x200x176 [0, 3, 1, 2] (addf (F := Ideal) (Host.dotGeneral (F := Ideal) dot_S8x200x176x384_S384x4_S8x200x176x4_3_0_012_1_n_n none (transpose S8x200x176x384 [0, 2, 3, 1] X transposes_S8x384x200x176_S8x200x176x384_0_2_3_1) W) (broadcastInDim S8x200x176x4 ![0, 1, 2, 3] bcast_S1x1x1x4_S8x200x176x4_0_1_2_3 (broadcastInDim S1x1x1x4 ![3] bcast_S4_S1x1x1x4_3 B))) transposes_S8x200x176x4_S8x4x200x176_0_3_1_2
      = transpose S8x4x200x176 [0, 3, 1, 2] (headSum (transpose S8x200x176x384 [0, 2, 3, 1] X transposes_S8x384x200x176_S8x200x176x384_0_2_3_1) W B) transposes_S8x200x176x4_S8x4x200x176_0_3_1_2 :=
  congrArg (fun Y => transpose S8x4x200x176 [0, 3, 1, 2] Y transposes_S8x200x176x4_S8x4x200x176_0_3_1_2) (dir_eq X W B)

end Cert.ReferenceIdeal.RefHeads

end
-- ==== Proof.lean ====
/-
  Three 1×1 convolution heads (2, 14 and 4 output channels) on an 8×384×200×176 feature map: at every pixel of every image,
  output channel o of a head is the pixel's 384 channels against column o of the head's weights, plus entry o of its
  bias,   head (b, o, y, x) = ∑ κ < 384, X (b, κ, y, x) · W (κ, o) + B (o).

  The reference moves the feature map to channels-last, takes one matrix product per head contracted over the
  channels, adds the head's bias along every pixel, and moves the channel axis back to position 1. The kernel lays the
  three weight matrices side by side (padding the 20 columns to 32 with zeros, and the biases likewise), moves the
  feature map to channels-last, and on an 8×5 grid of (image, band of 40 rows) multiplies the band's 7040 pixels by
  the padded weights once, adds the padded bias, and stores columns 0–1, 2–15 and 16–19 as the three heads' blocks;
  three transposes then move the channel axes. Entry by entry the two computations are the same sum: a column of the
  padded weights inside a head's band is that head's column, the forty blocks of each result tile its array, and the
  closing transposes are the same on both sides. No law of arithmetic beyond that is used, so the inputs' finiteness
  is never opened. The idealization rewrote nothing, so `preserves` has nothing to state.

  The three frames: each kernel program runs as the host lines before the region, the pipelined region, the host
  lines after it, and reads its argument arrays back unchanged; the reference's frame is its run with the results
  dropped.
-/
import proofs.«168696_g47064251629653_cont_8to1c4_533_7_alg».proof.Defs
import proofs.«168696_g47064251629653_cont_8to1c4_533_7_alg».proof.Proof.Gen.Kernel
import proofs.«168696_g47064251629653_cont_8to1c4_533_7_alg».proof.Proof.Gen.KernelIdeal
import proofs.«168696_g47064251629653_cont_8to1c4_533_7_alg».proof.Proof.Gen.ReferenceIdeal
import proofs.«168696_g47064251629653_cont_8to1c4_533_7_alg».proof.Proof.Gen.Pre_finite_inputs
import proofs.«168696_g47064251629653_cont_8to1c4_533_7_alg».proof.Proof.HeadsRunBits
import proofs.«168696_g47064251629653_cont_8to1c4_533_7_alg».proof.Proof.HeadsResult
import proofs.«168696_g47064251629653_cont_8to1c4_533_7_alg».proof.Proof.RefHeads

noncomputable section

namespace Cert.Proof

open Idealize.ShloMosaic Idealize.SL.Sem Cert.HeadSpec

theorem frame_kernel : Cert.frame_Kernel := fun m ρ _ => Cert.Kernel.Heads.frame m ρ

theorem frame_kernelIdeal : Cert.frame_KernelIdeal := fun m ρ _ => Cert.KernelIdeal.Heads.frame m ρ

theorem frame_reference : Cert.frame_ReferenceIdeal := fun m ρ _ =>
  (θ_run Cert.ReferenceIdeal.defs _ _).mono (fun _ h c => (h c).2.2.2) (Cert.ReferenceIdeal.Value.run (F := Ideal) m ρ)

/-- Both idealized programs end with each result at the same head of the specification, channel axis at position 1: the
    kernel by its run with the results named, the reference by its run read one operation at a time; the two agree on
    the feature map (both move the same argument to channels-last) and on each head's weights and bias. -/
theorem algebraic : Cert.algebraic_KernelIdeal_ReferenceIdeal := by
  intro m ρ m' ρ' _ hagree
  refine ⟨_, _, _, Cert.KernelIdeal.Heads.run_heads m ρ, ?_⟩
  refine (θ_run Cert.ReferenceIdeal.defs _ _).mono (fun _ h c => ?_) (Cert.ReferenceIdeal.Value.run (F := Ideal) m' ρ')
  obtain ⟨a0, a1, a2, a3, a4, a5, a6⟩ := hagree c
  obtain ⟨r5, r10, r15, kept⟩ := h c
  refine ⟨r5.trans ?_, r10.trans ?_, r15.trans ?_, kept⟩
  · rw [a0, a1, a2, Cert.KernelIdeal.Heads.clsHead_eq]
    exact Cert.ReferenceIdeal.RefHeads.cls_result _ _ _
  · rw [a0, a3, a4, Cert.KernelIdeal.Heads.regHead_eq]
    exact Cert.ReferenceIdeal.RefHeads.reg_result _ _ _
  · rw [a0, a5, a6, Cert.KernelIdeal.Heads.dirHead_eq]
    exact Cert.ReferenceIdeal.RefHeads.dir_result _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
